-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12x4096x2048 : Shape := ⟨3, ![12, 4096, 2048]⟩
abbrev S2x6 : Shape := ⟨2, ![2, 6]⟩
abbrev S_ : Shape := ⟨0, ![]⟩

class Facts : Prop where
  bcast_S_S12x4096x2048 : S_.BroadcastsInDim S12x4096x2048 (![] : Fin 0 → Fin S12x4096x2048.rank)
  reducesTo_S12x4096x2048_S_d0_1_2 : S12x4096x2048.ReducesTo [0, 1, 2] S_
  h_S_ : 0 < S_.numel
  bcast_S_S2x6 : S_.BroadcastsInDim S2x6 (![] : Fin 0 → Fin S2x6.rank)
  reducesTo_S2x6_S_d0_1 : S2x6.ReducesTo [0, 1] S_

variable [Facts]

def fn {F : FTy → Type} [FloatOps F] (main_arg0 : FVec F S12x4096x2048 .f32) (main_arg1 : IVec S2x6 32) : IVec S_ 1 :=
  let main_v0 : FVec F S12x4096x2048 .f32 := Host.absf main_arg0
  let main_cst : FVec F S_ .f32 := constant S_ .f32 0x7F800000#32
  let main_v1 : FVec F S12x4096x2048 .f32 := broadcastInDim S12x4096x2048 ![] bcast_S_S12x4096x2048 main_cst
  let main_v2 : IVec S12x4096x2048 1 := cmpf .olt main_v0 main_v1
  let main_c : IVec S_ 1 := constantI S_ 1 1#1
  let main_v3 : IVec S_ 1 := (fun x v => Host.reduce IntOp.andi x v reducesTo_S12x4096x2048_S_d0_1_2 h_S_) main_v2 main_c
  let main_c_0 : IVec S_ 32 := constantI S_ 32 0#32
  let main_v4 : IVec S2x6 32 := broadcastInDim S2x6 ![] bcast_S_S2x6 main_c_0
  let main_v5 : IVec S2x6 1 := cmpi .sge main_arg1 main_v4
  let main_c_1 : IVec S_ 1 := constantI S_ 1 1#1
  let main_v6 : IVec S_ 1 := (fun x v => Host.reduce IntOp.andi x v reducesTo_S2x6_S_d0_1 h_S_) main_v5 main_c_1
  let main_v7 : IVec S_ 1 := andi main_v3 main_v6
  main_v7
-- ==== Kernel.lean ====
abbrev S12x4096x2048 : Shape := ⟨3, ![12, 4096, 2048]⟩
abbrev S2x6 : Shape := ⟨2, ![2, 6]⟩
abbrev S_ : Shape := ⟨0, ![]⟩
abbrev S1x4096x4096 : Shape := ⟨3, ![1, 4096, 4096]⟩
abbrev S1x1024x2048 : Shape := ⟨3, ![1, 1024, 2048]⟩
abbrev S1x1 : Shape := ⟨2, ![1, 1]⟩

abbrev nBuf : Space → Nat
  | .hbm => 10
  | .vmem => 4
  | .smem => 1
  | _ => 0

abbrev bufTy : (tb : Table) → Fin (tcTables nBuf tb) → BufTy
  | .hbm, ⟨0, _⟩ => ⟨S12x4096x2048, .f32⟩
  | .hbm, ⟨1, _⟩ => ⟨S2x6, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S2x6, .i32⟩
  | .hbm, ⟨6, _⟩ => ⟨S2x6, .i32⟩
  | .hbm, ⟨7, _⟩ => ⟨S_, .i32⟩
  | .hbm, ⟨8, _⟩ => ⟨S2x6, .i32⟩
  | .hbm, ⟨9, _⟩ => ⟨S1x4096x4096, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1024x2048, .f32⟩
  | .local _ .smem, ⟨0, _⟩ => ⟨S2x6, .i32⟩
  | _, _ => ⟨S12x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v1 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![4, 2, 6], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg1 : BitVec 32 := BitVec.ofNat 32 (i 1).val
  let v0 : Index := Scalar.indexCast arg1
  let arg2 : BitVec 32 := BitVec.ofNat 32 (i 2).val
  let v1 : Index := Scalar.indexCast arg2
  ![v0.toNat, v1.toNat]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .ne arg2 c0_i32_1
  let v4 : BitVec 32 := Scalar.extui v3
  let c0_i32_2 : BitVec 32 := 0#32
  let v5 : BitVec 1 := Scalar.cmpi .ne v4 c0_i32_2
  v5

def cc0_transform_0 (k0_off1_inb : ∀ i : grid0.Coords, ∀ a, (k0_off1 i) a + S1x1.size a ≤ S2x6.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : Index := Scalar.indexCast arg2
  let v2 : BitVec 32 := pf.at 0 (Rect.unit (s := S2x6) ![v0.toNat, v1.toNat] S1x1.size (k0_off1_inb i)) numel1_S1x1
  let c0_i32 : BitVec 32 := 0#32
  let c0_i32_0 : BitVec 32 := 0#32
  ![v2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

class Facts₀ : Prop where
  bcast_S_S2x6 : S_.BroadcastsInDim S2x6 (![] : Fin 0 → Fin S2x6.rank)
  numel1_S1x1 : S1x1.numel = 1
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1x1024x2048 : S1x1024x2048.ShapeCasts S1x1024x2048
  hrank0 : 0 < grid0.rank
  k0_off1_inb : ∀ i : grid0.Coords, ∀ a, (k0_off1 i) a + S1x1.size a ≤ S2x6.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1x1 pf i = cc0_transform_0 k0_off1_inb numel1_S1x1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S1x4096x4096.size a
  hwx0_1 : ∀ i : grid0.Coords, EltTy.bits .f32 = 32 ∨ (Rect.block (s := S1x4096x4096) S1x1024x2048.size (cc0_transform_1 i) (hinb0_1 i)).WholeWords (EltTy.packing .f32)

variable [Facts₀]

abbrev spec0_0 : Pipeline.WinSpec sig grid0.rank :=
  Pipeline.WinSpec.ofSpec (Memref.whole main_arg0) S1x1024x2048.size reads0_0 false false 2 stage0_0 sem0_0 nbuf0_0 hstage0_0

abbrev spec0_1 : Pipeline.WinSpec sig grid0.rank :=
  Pipeline.WinSpec.ofSpec (Memref.whole main_v1) S1x1024x2048.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1x1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1x1 pf i a + 1) * S1x1024x2048.size a ≤ S12x4096x2048.size a), EltTy.bits .f32 = 32 ∨ (Rect.block (s := S12x4096x2048) S1x1024x2048.size (cc0_transform_0 k0_off1_inb numel1_S1x1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))
abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S12x4096x2048 : Shape := ⟨3, ![12, 4096, 2048]⟩
abbrev S2x6 : Shape := ⟨2, ![2, 6]⟩
abbrev S_ : Shape := ⟨0, ![]⟩
abbrev S2x6x1 : Shape := ⟨3, ![2, 6, 1]⟩
abbrev S2x6x4096x2048 : Shape := ⟨4, ![2, 6, 4096, 2048]⟩
abbrev S2x4096x2048 : Shape := ⟨3, ![2, 4096, 2048]⟩
abbrev S4096x2x2048 : Shape := ⟨3, ![4096, 2, 2048]⟩
abbrev S4096x4096 : Shape := ⟨2, ![4096, 4096]⟩
abbrev S1x4096x4096 : Shape := ⟨3, ![1, 4096, 4096]⟩

abbrev nBuf : Space → Nat
  | .hbm => 16
  | .vmem => 0
  | .smem => 0
  | _ => 0

abbrev bufTy : (tb : Table) → Fin (tcTables nBuf tb) → BufTy
  | .hbm, ⟨0, _⟩ => ⟨S12x4096x2048, .f32⟩
  | .hbm, ⟨1, _⟩ => ⟨S2x6, .i32⟩
  | .hbm, ⟨2, _⟩ => ⟨S_, .i32⟩
  | .hbm, ⟨3, _⟩ => ⟨S2x6, .i32⟩
  | .hbm, ⟨4, _⟩ => ⟨S2x6, .i1⟩
  | .hbm, ⟨5, _⟩ => ⟨S_, .i32⟩
  | .hbm, ⟨6, _⟩ => ⟨S2x6, .i32⟩
  | .hbm, ⟨7, _⟩ => ⟨S2x6, .i32⟩
  | .hbm, ⟨8, _⟩ => ⟨S2x6, .i32⟩
  | .hbm, ⟨9, _⟩ => ⟨S2x6x1, .i32⟩
  | .hbm, ⟨10, _⟩ => ⟨S2x6x4096x2048, .f32⟩
  | .hbm, ⟨11, _⟩ => ⟨S_, .f32⟩
  | .hbm, ⟨12, _⟩ => ⟨S2x4096x2048, .f32⟩
  | .hbm, ⟨13, _⟩ => ⟨S4096x2x2048, .f32⟩
  | .hbm, ⟨14, _⟩ => ⟨S4096x4096, .f32⟩
  | .hbm, ⟨15, _⟩ => ⟨S1x4096x4096, .f32⟩
  | _, _ => ⟨S12x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S2x6 : S_.BroadcastsInDim S2x6 (![] : Fin 0 → Fin S2x6.rank)
  bcast_S2x6_S2x6x1_0_1 : S2x6.BroadcastsInDim S2x6x1 (![0, 1] : Fin 2 → Fin S2x6x1.rank)
  reducesTo_S2x6x4096x2048_S2x4096x2048_d1 : S2x6x4096x2048.ReducesTo [1] S2x4096x2048
  h_S_ : 0 < S_.numel
  transposes_S2x4096x2048_S4096x2x2048_1_0_2 : S2x4096x2048.Transposes [1, 0, 2] S4096x2x2048
  shapeCasts_S4096x2x2048_S4096x4096 : S4096x2x2048.ShapeCasts S4096x4096
  bcast_S4096x4096_S1x4096x4096_1_2 : S4096x4096.BroadcastsInDim S1x4096x4096 (![1, 2] : Fin 2 → Fin S1x4096x4096.rank)
  gather_S12x4096x2048_S2x6x1_S2x6x4096x2048_23_0_n_n_0_2_140962048_wf : GatherDims.WF S12x4096x2048 S2x6x1 S2x6x4096x2048 [2, 3] [0] [] [0] [] 2 ![1, 4096, 2048]

variable [Facts₀]

def gather_S12x4096x2048_S2x6x1_S2x6x4096x2048_23_0_n_n_0_2_140962048 : GatherDims S12x4096x2048 S2x6x1 S2x6x4096x2048 where
  offsetDims := [2, 3]
  collapsedSliceDims := [0]
  operandBatchingDims := []
  startIndicesBatchingDims := []
  startIndexMap := [0]
  indexVectorDim := 2
  sliceSizes := ![1, 4096, 2048]
  wf := gather_S12x4096x2048_S2x6x1_S2x6x4096x2048_23_0_n_n_0_2_140962048_wf

class Facts : Prop extends Facts₀ where

variable [Facts]
-- ==== Proof.Kernel.Base.lean ====
/-
  The pooling kernel's launch, up to its body: what the region finds and what it is called with.

  @main first clamps the index array to `0 … 11` (two constants and the six operations of the clip), then launches
  ONE region over the grid (frame tile, subgroup, member) = (4, 2, 6), 48 points in row-major order, so that point
  `t` is member `t % 6` of its (tile, subgroup) pair. The clamped array is the region's PREFETCHED TABLE: the input
  window's block at a point is the 1×1024×2048 slab of player row `table[subgroup, member]`, frame tile `tile`;
  the output window's block is slab (0, tile, subgroup) of the result, the same for the six members, so it is
  written back once, after member 5. The body copies the input block over the output block at member 0 and
  replaces the output block by the elementwise maximum of the two at every other member.
  Here: the buffers' contents when the region is entered (`V`: the fold of the host operations over the launch
  memory), @main up to the region (`hmain`), the table read off `V` (`tbl`), the side condition the pipeline asks
  of it (`Ok`: every table-indexed block inside the array), the blocks, the two branch conditions and the
  write-back schedule in closed form, and the frame claim's post read off a frame run (`frame_of`).
-/
import proofs.«429363_j59708635349141_3_alg».proof.Proof.Gen.Kernel.Launch
import proofs.«429363_j59708635349141_3_alg».proof.Proof.Gen.Kernel.Skeleton
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s buffers when the region is entered: the launch contents after the host operations before it. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is the two stretches of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the array `P`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, Finset.mem_singleton]
    repeat' apply And.intro
    all_goals exact StableHlo.devRef_ne_of_ne (by decide)))
/-- Nor the index array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, Finset.mem_singleton]
    repeat' apply And.intro
    all_goals exact StableHlo.devRef_ne_of_ne (by decide)))

/-! ## The prefetched table, read off the region-entry contents -/

/-- The table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The pipeline's side condition of the table: every block the input window's index map selects lies inside `P`. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The input window's current staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c)⟩) h

/-! ## The body's two branch conditions and the write-back schedule, over the grid -/

/-- The first branch (copy) is taken exactly at member 0. -/
theorem hcond0_0 : ∀ t : Fin grid0.N, k0_cond1 (grid0.coords t) = 1#1 ↔ t.val % 6 = 0 := by decide +kernel
/-- The second branch (maximum) is taken exactly at the other members. -/
theorem hcond0_1 : ∀ t : Fin grid0.N, k0_cond2 (grid0.coords t) = 1#1 ↔ ¬ t.val % 6 = 0 := by decide +kernel
/-- The output window is written back exactly after member 5, at any contents of the table (its index map reads none). -/
theorem flush0_1 (a : (pcfg0 (F := F)).Adm) : ∀ t : Fin (cfg0 a).N, ((cfg0 a).win 1).flush t = true ↔ t.val % 6 = 5 :=
  (by decide +kernel : ∀ t : Fin grid0.N, Pipeline.Window.flushOf grid0 true cc0_transform_1 t = true ↔ t.val % 6 = 5)

/-- At every point one of the two branches stores the output block: the output window is never idle. -/
theorem idle0_1 : ∀ i : grid0.Coords, idle0 (1 : Fin 2) i = false := by decide +kernel

/-! ## What the body is called with -/

/-- One staging buffer of the output window, through which its contents are stated. -/
abbrev VO0_1 : View sig .tc .vmem S1x1024x2048 .f32 := (Memref.whole cc0_stg1_0 : Memref sig .tc .vmem S1x1024x2048 .f32).view
abbrev ms0_0 (hO : Ok m) (t : Fin (cfgM m hO).N) : Memref sig .tc .vmem S1x1024x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)

/-- The table as the body is handed it (the body never loads from it). -/
abbrev tbM0 : Memref sig .tc .smem S2x6 .i32 := Memref.whole main_v0
abbrev htbM0 : tbM0.IsWhole := Memref.isWhole_whole _

/-- The kernel body at point `t`, on what the pipeline calls it with. -/
abbrev bodyAt0 (a : (pcfg0 (F := F)).Adm) (t : Fin (cfg0 a).N) : Prog (TpuEff nD τ sig (Elt F) Λ₀ .tc) PUnit :=
  cc0__kernel (grid0.coords t) tbM0 htbM0 (spec0_0.stage ((cfg0 a).slots t 0)) (hstage0_0 (((cfg0 a).slots t 0).cast nbuf0_0)) (spec0_1.stage ((cfg0 a).slots t 1)) (hstage0_1 (((cfg0 a).slots t 1).cast nbuf0_1))

end Cert.Kernel.Fr

end
-- ==== Proof.Kernel.RunA.lean ====
/-
  The body at member 0 of a (tile, subgroup) pair: the first branch is taken, the second is not. On whole staging
  buffers — the input's at its block `x0`, the output's at anything — the body runs to its end with the input's buffer
  as it was and the output's overwritten by the stores the run lists (`kernelRun0_A … |>.1`: one store of the whole
  block, the input block).
-/
import proofs.«429363_j59708635349141_3_alg».proof.Proof.Kernel.Base

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable def kernelRun0_A (c : Dev nD) (i : grid0.Coords) (arg4 : Memref sig .tc .vmem S1x1024x2048 .f32) (harg4 : arg4.IsWhole) (arg5 : Memref sig .tc .vmem S1x1024x2048 .f32) (harg5 : arg5.IsWhole)
    (hc0 : k0_cond1 i = 1#1) (hc1 : ¬ k0_cond2 i = 1#1) (x0 : Vec F S1x1024x2048 .f32) :
    { L1 : List (View.Piece (Elt F) S1x1024x2048 .f32) //
      ∀ (E : Set ℕ) (K : PUnit → sProp 𝕄),
        iprop(owns (c : Thread nD τ) arg4 fullShare x0 ∗ (∃ d, owns (c : Thread nD τ) arg5 fullShare d)
            ∗ (iprop(owns (c : Thread nD τ) arg4 fullShare x0 ∗ (∃ f, arg5.view.loc (c : Thread nD τ) ↦[arg5.view.set]{fullShare} arg5.view.writes (Elt F) f L1)) -∗ K ⟨⟩))
          ⊢ wp frame (wpE (defs₀ (F := F)) Variants.none c none) E (cc0__kernel i tbM0 htbM0 arg4 harg4 arg5 harg5) K } := by
  refine ⟨?_, fun E K => ?run⟩
  case run =>
    simp only [cc0__kernel_eq_skeleton]; unfold cc0__kernel_skel
    unfold owns
    iintro ⟨⟨%f0, %hf0, H0⟩, ⟨%d1, %f1, -, H1⟩, Hk⟩
    obtain rfl := harg4.eq_unread hf0
    sl_exec (disch := first | exact hc0 | exact hc1)
    sl_step
    iapply Hk
    isplitl [H0]
    · iexists _; isplitr; · ipureintro; exact harg4.read_unread _
      iexact H0
    iexists _; iexact H1

end Cert.Kernel.Fr

end
-- ==== Proof.Kernel.RunB.lean ====
/-
  The body at a member other than 0: the first branch is not taken, the second is. On whole staging buffers — the
  input's at its block `x0`, the output's at its running contents `xo1` — the body runs to its end with the input's
  buffer as it was and the output's overwritten by the stores the run lists (one store of the whole block: the
  elementwise maximum of the running contents and the input block).
-/
import proofs.«429363_j59708635349141_3_alg».proof.Proof.Kernel.RunA

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable def kernelRun0_B (c : Dev nD) (i : grid0.Coords) (arg4 : Memref sig .tc .vmem S1x1024x2048 .f32) (harg4 : arg4.IsWhole) (arg5 : Memref sig .tc .vmem S1x1024x2048 .f32) (harg5 : arg5.IsWhole)
    (hc0 : ¬ k0_cond1 i = 1#1) (hc1 : k0_cond2 i = 1#1) (x0 : Vec F S1x1024x2048 .f32) (xo1 : Vec F S1x1024x2048 .f32) :
    { L1 : List (View.Piece (Elt F) S1x1024x2048 .f32) //
      ∀ (E : Set ℕ) (K : PUnit → sProp 𝕄),
        iprop(owns (c : Thread nD τ) arg4 fullShare x0 ∗ owns (c : Thread nD τ) arg5 fullShare xo1
            ∗ (iprop(owns (c : Thread nD τ) arg4 fullShare x0 ∗ (∃ f, arg5.view.loc (c : Thread nD τ) ↦[arg5.view.set]{fullShare} arg5.view.writes (Elt F) f L1)) -∗ K ⟨⟩))
          ⊢ wp frame (wpE (defs₀ (F := F)) Variants.none c none) E (cc0__kernel i tbM0 htbM0 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, Hk⟩
    obtain rfl := harg4.eq_unread hf0; obtain rfl := harg5.eq_unread hf1
    sl_exec (disch := first | exact hc0 | exact hc1)
    sl_step
    iapply Hk
    isplitl [H0]
    · iexists _; isplitr; · ipureintro; exact harg4.read_unread _
      iexact H0
    iexists _; iexact H1

end Cert.Kernel.Fr

end
-- ==== Proof.Kernel.Frame.lean ====
/-
  The pooling kernel's frame: what the output buffer holds after each point, the proof data, the body obligation
  and the run.

  After the body at point `n` the output window's staging buffer holds (`outsAt0`): at member 0 (`n % 6 = 0`) the
  input block of the point; at any other member the elementwise maximum of what the point before left and the
  point's input block — the buffer is not written back between the members of one (tile, subgroup) pair
  (`before0_1_B`), so what the body finds there is what it left. The run (`run_main`) holds for every contents of
  the index array, under the side condition `Ok` of the clamped table.
-/
import proofs.«429363_j59708635349141_3_alg».proof.Proof.Kernel.RunB

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At member 0 the run's one store covers the output block. -/
theorem cover0_A_1 (c : Dev nD) (i : grid0.Coords) (arg4 : Memref sig .tc .vmem S1x1024x2048 .f32) (harg4 : arg4.IsWhole) (arg5 : Memref sig .tc .vmem S1x1024x2048 .f32) (harg5 : arg5.IsWhole)
    (hc0 : k0_cond1 i = 1#1) (hc1 : ¬ k0_cond2 i = 1#1) (x0 : Vec F S1x1024x2048 .f32) (y : S1x1024x2048.Idx) :
    ∃ pc ∈ (kernelRun0_A c i arg4 harg4 arg5 harg5 hc0 hc1 x0).1, y ∈ pc.1.set :=
  View.cover_of_tiledL (kernelRun0_A c i arg4 harg4 arg5 harg5 hc0 hc1 x0).1 S1x1024x2048.size (by sl_kernel_rfl) y

/-- What the body leaves in the output buffer at member 0. -/
def out0_A_1 (c : Dev nD) (i : grid0.Coords) (arg4 : Memref sig .tc .vmem S1x1024x2048 .f32) (harg4 : arg4.IsWhole) (arg5 : Memref sig .tc .vmem S1x1024x2048 .f32) (harg5 : arg5.IsWhole)
    (hc0 : k0_cond1 i = 1#1) (hc1 : ¬ k0_cond2 i = 1#1) (x0 : Vec F S1x1024x2048 .f32) : Vec F S1x1024x2048 .f32 :=
  VO0_1.read (Elt F) (VO0_1.writes (Elt F) VO0_1.junk (kernelRun0_A c i arg4 harg4 arg5 harg5 hc0 hc1 x0).1)

/-- At another member the run's one store covers the output block. -/
theorem cover0_B_1 (c : Dev nD) (i : grid0.Coords) (arg4 : Memref sig .tc .vmem S1x1024x2048 .f32) (harg4 : arg4.IsWhole) (arg5 : Memref sig .tc .vmem S1x1024x2048 .f32) (harg5 : arg5.IsWhole)
    (hc0 : ¬ k0_cond1 i = 1#1) (hc1 : k0_cond2 i = 1#1) (x0 : Vec F S1x1024x2048 .f32) (xo1 : Vec F S1x1024x2048 .f32) (y : S1x1024x2048.Idx) :
    ∃ pc ∈ (kernelRun0_B c i arg4 harg4 arg5 harg5 hc0 hc1 x0 xo1).1, y ∈ pc.1.set :=
  View.cover_of_tiledL (kernelRun0_B c i arg4 harg4 arg5 harg5 hc0 hc1 x0 xo1).1 S1x1024x2048.size (by sl_kernel_rfl) y

/-- What the body leaves in the output buffer at another member, over the running contents `xo1`. -/
def out0_B_1 (c : Dev nD) (i : grid0.Coords) (arg4 : Memref sig .tc .vmem S1x1024x2048 .f32) (harg4 : arg4.IsWhole) (arg5 : Memref sig .tc .vmem S1x1024x2048 .f32) (harg5 : arg5.IsWhole)
    (hc0 : ¬ k0_cond1 i = 1#1) (hc1 : k0_cond2 i = 1#1) (x0 : Vec F S1x1024x2048 .f32) (xo1 : Vec F S1x1024x2048 .f32) : Vec F S1x1024x2048 .f32 :=
  VO0_1.read (Elt F) (VO0_1.writes (Elt F) VO0_1.junk (kernelRun0_B c i arg4 harg4 arg5 harg5 hc0 hc1 x0 xo1).1)

/-! ## What the output buffer holds after each point -/

/-- The accumulation over the members of a (tile, subgroup) pair. -/
def outsAt0 (hO : Ok m) (c : Dev nD) : (n : ℕ) → n < (cfgM m hO).N → Vec F S1x1024x2048 .f32
  | 0, hn => out0_A_1 c (grid0.coords ⟨0, hn⟩) (ms0_0 m hO ⟨0, hn⟩) (hs0_0 m hO ⟨0, hn⟩) (ms0_1 m hO ⟨0, hn⟩) (hs0_1 m hO ⟨0, hn⟩)
      ((hcond0_0 ⟨0, hn⟩).mpr (Nat.zero_mod _)) (fun h => (hcond0_1 ⟨0, hn⟩).mp h (Nat.zero_mod _)) (iblk m hO c 0 ⟨0, hn⟩)
  | n + 1, hn =>
    if h0 : (n + 1) % 6 = 0 then
      out0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩)
        ((hcond0_0 ⟨n + 1, hn⟩).mpr h0) (fun h => (hcond0_1 ⟨n + 1, hn⟩).mp h h0) (iblk m hO c 0 ⟨n + 1, hn⟩)
    else
      out0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩)
        (fun h => h0 ((hcond0_0 ⟨n + 1, hn⟩).mp h)) ((hcond0_1 ⟨n + 1, hn⟩).mpr h0) (iblk m hO c 0 ⟨n + 1, hn⟩) (outsAt0 hO c n (Nat.lt_of_succ_lt hn))

theorem outsAt0_A (hO : Ok m) (c : Dev nD) (t : Fin (cfgM m hO).N) (h0 : t.val % 6 = 0) :
    outsAt0 m hO c t.val t.isLt = out0_A_1 c (grid0.coords t) (ms0_0 m hO t) (hs0_0 m hO t) (ms0_1 m hO t) (hs0_1 m hO t)
      ((hcond0_0 t).mpr h0) (fun h => (hcond0_1 t).mp h h0) (iblk m hO c 0 t) := by
  obtain ⟨n, hn⟩ := t
  dsimp only at h0 ⊢
  cases n with
  | zero => rw [outsAt0]
  | succ n => rw [outsAt0, dif_pos h0]

theorem outsAt0_B (hO : Ok m) (c : Dev nD) (t : Fin (cfgM m hO).N) (h0 : ¬ t.val % 6 = 0) :
    outsAt0 m hO c t.val t.isLt = out0_B_1 c (grid0.coords t) (ms0_0 m hO t) (hs0_0 m hO t) (ms0_1 m hO t) (hs0_1 m hO t)
      (fun h => h0 ((hcond0_0 t).mp h)) ((hcond0_1 t).mpr h0) (iblk m hO c 0 t) (outsAt0 m hO c (t.val - 1) (Nat.lt_of_le_of_lt (Nat.sub_le _ _) t.isLt)) := by
  obtain ⟨n, hn⟩ := t
  dsimp only at h0 ⊢
  cases n with
  | zero => exact absurd (Nat.zero_mod _) h0
  | succ n => simp only [Nat.add_one_sub_one]; rw [outsAt0, dif_neg h0]

/-! ## The proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => (outsAt0 m hO c t.val t.isLt)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = (outsAt0 m hO c t.val t.isLt) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d

/-- At a member other than 0 the output buffer holds what the body left at the point before: not the first point,
    and the buffer was not written back between. -/
theorem before0_1_B (hO : Ok m) (c : Dev nD) (t : Fin (cfgM m hO).N) (h0 : ¬ t.val % 6 = 0) (d) :
    (dats m hO 0 c).before 1 t d = (outsAt0 m hO c (t.val - 1) (Nat.lt_of_le_of_lt (Nat.sub_le _ _) t.isLt)) := by
  have hN : t.val < 48 := lt_of_lt_of_eq t.isLt (show (cfgM m hO).N = 48 from N_0)
  refine (Dat.before_out_kept (dats m hO 0 c) 1 rfl t (by omega) (Bool.eq_false_iff.mpr fun h => by have := (flush0_1 _ _).mp h; dsimp only at this; omega)
    (fun i => idle0_1 i) (fun _ _ => rfl) d).trans ?_
  exact after0_1 m hO c ⟨t.val - 1, Nat.lt_of_le_of_lt (Nat.sub_le _ _) t.isLt⟩

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t))

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0]
  rw [show (dats m hO 0 c).Φ t.succ = (dats m hO 0 c).Φ t.castSucc from rfl,
    show (dats m hO 0 c).owesAt () t.succ = (dats m hO 0 c).owesAt () t.castSucc from rfl,
    after0_0, after0_1]
  by_cases h0 : t.val % 6 = 0
  · rw [outsAt0_A m hO c t h0]
    unfold out0_A_1
    iintro ⟨HΦ, Ho, ⟨%d0, H0⟩, ⟨%d1, H1⟩⟩
    iapply ((kernelRun0_A c (grid0.coords t) _ _ _ _ ((hcond0_0 t).mpr h0) (fun h => (hcond0_1 t).mp h h0) (iblk m hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · rw [outsAt0_B m hO c t h0]
    simp only [before0_1_B m hO c t h0]
    unfold out0_B_1
    iintro ⟨HΦ, Ho, ⟨%d0, H0⟩, ⟨%d1, H1⟩⟩
    iapply ((kernelRun0_B c (grid0.coords t) _ _ _ _ (fun h => h0 ((hcond0_0 t).mp h)) ((hcond0_1 t).mpr h0) (iblk m hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

theorem body_obligation (hO : Ok m) (c : Dev nD) : BodyObligation (dats (F := F) m hO 0 c) (defs₀ (F := F)) Variants.none () Set.univ := fun t => by
  rw [bigSep_W0, bigSep_W0]
  have hi : (cfgM m hO).idle (1 : Fin 2) ((cfgM m hO).grid.coords t) = false := idle0_1 _
  rw [hi]
  exact sound_body m hO c t

/-! ## The run and the frame -/

set_option backward.isDefEq.respectTransparency.types false in
/-- From any memory with zero counters every weakly fair execution of @main terminates, each array of the pipeline
    ends at what the proof data say, and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  Pipeline.θ_run_frameP pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The frame: the program runs to the end and its two argument arrays end unchanged, for every contents of the
    index array, under the table's side condition. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ hO (dats m hO) (A_eq m hO) (run_main m ρ hO)

end Cert.Kernel.Fr

end
-- ==== Proof.PoolSpec.lean ====
/-
  Subgroup max pooling, as one function of the two argument arrays.

  The arrays: `P : [12, 4096, 2048]` (player, frame, channel), an index array `idx : [2, 6]` of 32-bit words
  (subgroup, member), and the result `[1, 4096, 4096]`, whose last axis is the two subgroups' channel axes side by
  side: column `c` belongs to subgroup `c / 2048` and is channel `c % 2048`.

  An index word selects a player row by its SIGNED value clamped to `0 … 11` (`row`). The result at frame `T`,
  subgroup `s`, channel `d` is the maximum, over the six members `j` of the subgroup, of `P[row idx[s, j], T, d]`
  (`pooledAt`; the maximum of extended reals is their supremum, and `−∞` is its neutral element).
  `runMax … n` is the maximum over the members `0 … n` only: what a member-by-member accumulation holds after
  member `n`. It starts at member `0`'s entry (`runMax_zero`), each further member is one binary maximum
  (`runMax_succ`), and after member `5` it is the whole maximum (`runMax_five`).
-/
import Idealize.ShloMosaic.PureOps.Ideal
import Idealize.ShloMosaic.Lib.ValueIdx

noncomputable section

namespace Cert.Pool

open Idealize.ShloMosaic Idealize.ShloMosaic.ValueIdx

abbrev SP : Shape := ⟨3, ![12, 4096, 2048]⟩
abbrev SI : Shape := ⟨2, ![2, 6]⟩
abbrev SO : Shape := ⟨3, ![1, 4096, 4096]⟩

/-- The player row an index word selects: the word read signed, clamped to `0 … 11`. -/
def row (w : BitVec 32) : Fin 12 := ⟨min w.toInt.toNat 11, by omega⟩

theorem row_val (w : BitVec 32) : (row w).val = min w.toInt.toNat 11 := rfl

/-- Member `j` of subgroup `s`: its player's entry at frame `T`, channel `d`. -/
def member (P : FVec Ideal SP .f32) (idx : IVec SI 32) (s : Fin 2) (T : Fin 4096) (d : Fin 2048) (j : Fin 6) : EReal :=
  P (ix3 (row (idx (ix2 s j))) T d)

/-- The maximum over all six members. -/
def pooledAt (P : FVec Ideal SP .f32) (idx : IVec SI 32) (s : Fin 2) (T : Fin 4096) (d : Fin 2048) : EReal :=
  Finset.univ.sup (member P idx s T d)

/-- The maximum over the members `0 … n`. -/
def runMax (P : FVec Ideal SP .f32) (idx : IVec SI 32) (s : Fin 2) (T : Fin 4096) (d : Fin 2048) (n : ℕ) : EReal :=
  (Finset.univ.filter fun j : Fin 6 => j.val ≤ n).sup (member P idx s T d)

/-- The pooled array: frame `o 1`, subgroup and channel the quotient and remainder of column `o 2` by 2048. -/
def pooled (P : FVec Ideal SP .f32) (idx : IVec SI 32) : FVec Ideal SO .f32 := fun o =>
  pooledAt P idx ⟨(o 2).val / 2048, by have h : (o 2).val < 4096 := (o 2).isLt; omega⟩ ⟨(o 1).val, (o 1).isLt⟩
    ⟨(o 2).val % 2048, Nat.mod_lt _ (by norm_num)⟩

variable (P : FVec Ideal SP .f32) (idx : IVec SI 32) (s : Fin 2) (T : Fin 4096) (d : Fin 2048)

theorem runMax_zero : runMax P idx s T d 0 = member P idx s T d 0 := by
  unfold runMax
  rw [show (Finset.univ.filter fun j : Fin 6 => j.val ≤ 0) = {(0 : Fin 6)} from by decide, Finset.sup_singleton]

theorem runMax_succ (n : ℕ) (hn : n + 1 < 6) :
    runMax P idx s T d (n + 1) = max (runMax P idx s T d n) (member P idx s T d ⟨n + 1, hn⟩) := by
  unfold runMax
  have h : (Finset.univ.filter fun j : Fin 6 => j.val ≤ n + 1)
      = insert (⟨n + 1, hn⟩ : Fin 6) (Finset.univ.filter fun j : Fin 6 => j.val ≤ n) := by
    ext j
    simp only [Finset.mem_filter, Finset.mem_univ, true_and, Finset.mem_insert, Fin.ext_iff]
    omega
  rw [h, Finset.sup_insert, sup_comm]

theorem runMax_five : runMax P idx s T d 5 = pooledAt P idx s T d := by
  unfold runMax pooledAt
  rw [show (Finset.univ.filter fun j : Fin 6 => j.val ≤ 5) = Finset.univ from by decide]

end Cert.Pool

end
-- ==== Proof.IndexWords.lean ====
/-
  Index words.

  Part 1. The precondition ends in the conjunction of two all-reductions; the second is the all-reduction, over the
  [2, 6] index array, of the signed comparison "index word ≥ 0". If the whole predicate is 1, every index word is
  non-negative when read signed.

  Part 2. The clamp the program applies to an index word — the signed maximum with 0, then the signed minimum with
  11 — is, as a number, exactly the player row the specification selects, for every 32-bit word: a negative word goes
  to 0, a word above 11 goes to 11, any other word is kept.
-/
import proofs.«429363_j59708635349141_3_alg».proof.Proof.PoolSpec
import proofs.«429363_j59708635349141_3_alg».proof.Proof.Gen.Pre_finite_inputs
import Idealize.ShloMosaic.Lib.ReduceAll
import Idealize.ShloMosaic.Lib.Affine

namespace Cert.Pool.Words

open Idealize.ShloMosaic Idealize.ShloMosaic.ValueIdx

/-! ## Part 1: the precondition gives non-negative index words -/

theorem idx_nonneg_of_pre {F : FTy → Type} [FloatOps F] (P : FVec F Cert.Pool.SP .f32) (idx : IVec Cert.Pool.SI 32)
    (h : Cert.Pre_finite_inputs.fn (F := F) P idx = fun _ => 1#1) : ∀ i, 0 ≤ (idx i).toInt := by
  intro i
  -- the predicate at its one index: a conjunction of two words of one bit
  have h0 := congrFun h ValueIdx.ix0
  dsimp only [Cert.Pre_finite_inputs.fn] at h0
  obtain ⟨-, h2⟩ := IntOp.andi_eq_one.1 h0
  -- the second conjunct is an all-reduction by "and" into a rank-0 result, which has one index:
  -- every element of the compared array is 1
  haveI : Subsingleton Cert.Pre_finite_inputs.S_.Idx := ⟨fun _ _ => funext fun d => d.elim0⟩
  have h3 := Host.reduce_andi_all _ _ _ _ _ h2 i
  -- at element i the comparison is "0 ≤ idx i", both read signed
  have h4 : (0#32 : BitVec 32).toInt ≤ (idx i).toInt := IntOp.cmpi_sge.1 h3
  have h0 : (0#32 : BitVec 32).toInt = 0 := by decide
  rw [h0] at h4
  exact h4

/-! ## Part 2: the clamp of an index word is the specification's row -/

/-- The clamp of one word: the signed maximum of 0 and the word, then the signed minimum of 11 and that. -/
def clipW (w : BitVec 32) : BitVec 32 := IntOp.minsi 11#32 (IntOp.maxsi 0#32 w)

theorem clipW_toNat (w : BitVec 32) : (clipW w).toNat = (Cert.Pool.row w).val := by
  rw [Cert.Pool.row_val]
  unfold clipW IntOp.minsi IntOp.maxsi
  have h0 : (0#32 : BitVec 32).toInt = 0 := by decide
  have h11 : (11#32 : BitVec 32).toInt = 11 := by decide
  -- the signed reading of w from its unsigned one
  have hw := BitVec.toInt_eq_toNat_cond w
  have hlt := w.isLt
  by_cases h1 : w.slt 0#32 = true
  · -- a negative word: the maximum with 0 is 0, which is not above 11
    rw [if_pos h1, if_neg (by decide : ¬ ((11#32 : BitVec 32).slt 0#32 = true))]
    rw [BitVec.slt_iff_toInt_lt, h0] at h1
    show 0 = _
    omega
  · rw [if_neg h1]
    rw [BitVec.slt_iff_toInt_lt, h0] at h1
    by_cases h2 : (11#32 : BitVec 32).slt w = true
    · -- a word above 11: the minimum with 11 is 11
      rw [if_pos h2]
      rw [BitVec.slt_iff_toInt_lt, h11] at h2
      show 11 = _
      omega
    · -- a word in 0 … 11 is kept
      rw [if_neg h2]
      rw [BitVec.slt_iff_toInt_lt, h11] at h2
      split at hw <;> omega

theorem clipW_lt (w : BitVec 32) : (clipW w).toNat < 12 := by
  rw [clipW_toNat]; exact (Cert.Pool.row w).isLt

theorem clip_apply (hb : (⟨0, ![]⟩ : Shape).BroadcastsInDim Cert.Pool.SI (![] : Fin 0 → Fin Cert.Pool.SI.rank))
    (x : IVec Cert.Pool.SI 32) (i : Cert.Pool.SI.Idx) :
    minsi (broadcastInDim Cert.Pool.SI ![] hb (id (constantI ⟨0, ![]⟩ 32 11#32)))
      (maxsi (broadcastInDim Cert.Pool.SI ![] hb (id (constantI ⟨0, ![]⟩ 32 0#32))) x) i = clipW (x i) := rfl

end Cert.Pool.Words
-- ==== Proof.Kernel.Table.lean ====
/-
  The prefetched table is the clamped index array, and its side condition holds for every index array.

  The host operations before the region clamp each index word to `0 … 11` (the signed maximum with 0, then the
  signed minimum with 11): that array is the table the input window's index map reads (`tbl_eq`). At grid point
  (tile, subgroup, member) the map selects block (table[subgroup, member], tile, 0) of `P` in blocks of
  1 × 1024 × 2048 (`index0`, at any contents of the table). A clamped word is below 12 and a tile below 4, so
  every selected block lies inside `P` (`ok`).
-/
import proofs.«429363_j59708635349141_3_alg».proof.Proof.Kernel.Base
import proofs.«429363_j59708635349141_3_alg».proof.Proof.IndexWords
import Idealize.ShloMosaic.Lib.StableHlo.Run
import Idealize.ShloMosaic.Lib.ValueIdx

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The table holds the clamp of each index word. -/
theorem tbl_eq (i : S2x6.Idx) :
    (tbl m 0 : S2x6.Idx → BitVec 32) i = Cert.Pool.Words.clipW ((m (((0 : Dev nD) : Thread nD τ).loc main_arg1) : S2x6.Idx → BitVec 32) i) := by
  have e : (V m (0 : Dev nD) main_v0 : S2x6.Idx → BitVec 32)
      = minsi (broadcastInDim S2x6 ![] Gen.bcast_S_S2x6 (id (constantI S_ 32 11#32)))
          (maxsi (broadcastInDim S2x6 ![] Gen.bcast_S_S2x6 (id (constantI S_ 32 0#32))) (m (((0 : Dev nD) : Thread nD τ).loc main_arg1))) := by
    dsimp only [V]
    simp only [hostOps0, hostOps0_1, List.flatten_cons, List.flatten_nil, List.append_nil, List.cons_append, List.nil_append]
    after_results
    rfl
  show (V m (0 : Dev nD) main_v0 : S2x6.Idx → BitVec 32) i = _
  rw [e]
  exact Cert.Pool.Words.clip_apply Gen.bcast_S_S2x6 _ i

/-- The input window's index map at any contents `pf` of the table, at a point of subgroup `s`, member `j`:
    the table word at `(s, j)`, the tile, and 0. -/
theorem index0 (pf : pre0.Contents (Elt F)) (i : grid0.Coords) (s : Fin 2) (j : Fin 6) (hs : (i 1).val = s.val) (hj : (i 2).val = j.val) :
    cc0_transform_0 k0_off1_inb numel1_S1x1 pf i = ![((pf 0 : S2x6.Idx → BitVec 32) (ix2 s j)).toNat, (i 0).val, 0] := by
  have ho := k0_off1_eq i
  have ho0 : k0_off1 i 0 = (i 1).val := congrFun ho 0
  have ho1 : k0_off1 i 1 = (i 2).val := congrFun ho 1
  have h0lt : (i 0).val < 4 := (i 0).isLt
  funext a
  match a with
  | ⟨0, _⟩ =>
    show ((pf 0 : S2x6.Idx → BitVec 32) ((Rect.unit (s := S2x6) (k0_off1 i) S1x1.size (k0_off1_inb i)).emb (Shape.Idx.first (numel1_S1x1.symm ▸ Nat.one_pos)))).toNat = _
    refine congrArg (fun x => ((pf 0 : S2x6.Idx → BitVec 32) x).toNat) (funext fun b => Fin.ext ?_)
    match b with
    | ⟨0, _⟩ => show k0_off1 i 0 + 1 * 0 = s.val; omega
    | ⟨1, _⟩ => show k0_off1 i 1 + 1 * 0 = j.val; omega
  | ⟨1, _⟩ =>
    show (BitVec.ofNat 32 (i 0).val).toNat = (i 0).val
    rw [BitVec.toNat_ofNat]; omega
  | ⟨2, _⟩ => rfl

/-- Every block the input window's index map selects lies inside `P`, whatever the index array holds. -/
theorem ok : Ok m := fun i => by
  have h0lt : (i 0).val < 4 := (i 0).isLt
  have hw := Cert.Pool.Words.clipW_lt ((m (((0 : Dev nD) : Thread nD τ).loc main_arg1) : S2x6.Idx → BitVec 32) (ix2 ⟨(i 1).val, (i 1).isLt⟩ ⟨(i 2).val, (i 2).isLt⟩))
  rw [← tbl_eq] at hw
  refine ⟨fun a => ?_, .inl rfl⟩
  rw [index0 (tbl m) i ⟨(i 1).val, (i 1).isLt⟩ ⟨(i 2).val, (i 2).isLt⟩ rfl rfl]
  match a with
  | ⟨0, _⟩ => show (((tbl m 0 : S2x6.Idx → BitVec 32) (ix2 ⟨(i 1).val, (i 1).isLt⟩ ⟨(i 2).val, (i 2).isLt⟩)).toNat + 1) * 1 ≤ 12; omega
  | ⟨1, _⟩ => show ((i 0).val + 1) * 1024 ≤ 4096; omega
  | ⟨2, _⟩ => show (0 + 1) * 2048 ≤ 2048; omega

end Cert.Kernel.Fr

end
-- ==== Proof.KernelIdeal.Base.lean ====
/-
  The pooling kernel's launch, up to its body: what the region finds and what it is called with.

  @main first clamps the index array to `0 … 11` (two constants and the six operations of the clip), then launches
  ONE region over the grid (frame tile, subgroup, member) = (4, 2, 6), 48 points in row-major order, so that point
  `t` is member `t % 6` of its (tile, subgroup) pair. The clamped array is the region's PREFETCHED TABLE: the input
  window's block at a point is the 1×1024×2048 slab of player row `table[subgroup, member]`, frame tile `tile`;
  the output window's block is slab (0, tile, subgroup) of the result, the same for the six members, so it is
  written back once, after member 5. The body copies the input block over the output block at member 0 and
  replaces the output block by the elementwise maximum of the two at every other member.
  Here: the buffers' contents when the region is entered (`V`: the fold of the host operations over the launch
  memory), @main up to the region (`hmain`), the table read off `V` (`tbl`), the side condition the pipeline asks
  of it (`Ok`: every table-indexed block inside the array), the blocks, the two branch conditions and the
  write-back schedule in closed form, and the frame claim's post read off a frame run (`frame_of`).
-/
import proofs.«429363_j59708635349141_3_alg».proof.Proof.Gen.KernelIdeal.Launch
import proofs.«429363_j59708635349141_3_alg».proof.Proof.Gen.KernelIdeal.Skeleton
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s buffers when the region is entered: the launch contents after the host operations before it. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is the two stretches of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the array `P`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, Finset.mem_singleton]
    repeat' apply And.intro
    all_goals exact StableHlo.devRef_ne_of_ne (by decide)))
/-- Nor the index array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.TRef.unary, StableHlo.TRef.binary, StableHlo.nullary_writes, StableHlo.unary_writes, StableHlo.binary_writes, Finset.mem_singleton]
    repeat' apply And.intro
    all_goals exact StableHlo.devRef_ne_of_ne (by decide)))

/-! ## The prefetched table, read off the region-entry contents -/

/-- The table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The pipeline's side condition of the table: every block the input window's index map selects lies inside `P`. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The input window's current staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c)⟩) h

/-! ## The body's two branch conditions and the write-back schedule, over the grid -/

/-- The first branch (copy) is taken exactly at member 0. -/
theorem hcond0_0 : ∀ t : Fin grid0.N, k0_cond1 (grid0.coords t) = 1#1 ↔ t.val % 6 = 0 := by decide +kernel
/-- The second branch (maximum) is taken exactly at the other members. -/
theorem hcond0_1 : ∀ t : Fin grid0.N, k0_cond2 (grid0.coords t) = 1#1 ↔ ¬ t.val % 6 = 0 := by decide +kernel
/-- The output window is written back exactly after member 5, at any contents of the table (its index map reads none). -/
theorem flush0_1 (a : (pcfg0 (F := F)).Adm) : ∀ t : Fin (cfg0 a).N, ((cfg0 a).win 1).flush t = true ↔ t.val % 6 = 5 :=
  (by decide +kernel : ∀ t : Fin grid0.N, Pipeline.Window.flushOf grid0 true cc0_transform_1 t = true ↔ t.val % 6 = 5)

/-- At every point one of the two branches stores the output block: the output window is never idle. -/
theorem idle0_1 : ∀ i : grid0.Coords, idle0 (1 : Fin 2) i = false := by decide +kernel

/-! ## What the body is called with -/

/-- One staging buffer of the output window, through which its contents are stated. -/
abbrev VO0_1 : View sig .tc .vmem S1x1024x2048 .f32 := (Memref.whole cc0_stg1_0 : Memref sig .tc .vmem S1x1024x2048 .f32).view
abbrev ms0_0 (hO : Ok m) (t : Fin (cfgM m hO).N) : Memref sig .tc .vmem S1x1024x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)

/-- The table as the body is handed it (the body never loads from it). -/
abbrev tbM0 : Memref sig .tc .smem S2x6 .i32 := Memref.whole main_v0
abbrev htbM0 : tbM0.IsWhole := Memref.isWhole_whole _

/-- The kernel body at point `t`, on what the pipeline calls it with. -/
abbrev bodyAt0 (a : (pcfg0 (F := F)).Adm) (t : Fin (cfg0 a).N) : Prog (TpuEff nD τ sig (Elt F) Λ₀ .tc) PUnit :=
  cc0__kernel (grid0.coords t) tbM0 htbM0 (spec0_0.stage ((cfg0 a).slots t 0)) (hstage0_0 (((cfg0 a).slots t 0).cast nbuf0_0)) (spec0_1.stage ((cfg0 a).slots t 1)) (hstage0_1 (((cfg0 a).slots t 1).cast nbuf0_1))

end Cert.KernelIdeal.Fr

end
-- ==== Proof.KernelIdeal.RunA.lean ====
/-
  The body at member 0 of a (tile, subgroup) pair: the first branch is taken, the second is not. On whole staging
  buffers — the input's at its block `x0`, the output's at anything — the body runs to its end with the input's buffer
  as it was and the output's overwritten by the stores the run lists (`kernelRun0_A … |>.1`: one store of the whole
  block, the input block).
-/
import proofs.«429363_j59708635349141_3_alg».proof.Proof.KernelIdeal.Base

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable def kernelRun0_A (c : Dev nD) (i : grid0.Coords) (arg4 : Memref sig .tc .vmem S1x1024x2048 .f32) (harg4 : arg4.IsWhole) (arg5 : Memref sig .tc .vmem S1x1024x2048 .f32) (harg5 : arg5.IsWhole)
    (hc0 : k0_cond1 i = 1#1) (hc1 : ¬ k0_cond2 i = 1#1) (x0 : Vec F S1x1024x2048 .f32) :
    { L1 : List (View.Piece (Elt F) S1x1024x2048 .f32) //
      ∀ (E : Set ℕ) (K : PUnit → sProp 𝕄),
        iprop(owns (c : Thread nD τ) arg4 fullShare x0 ∗ (∃ d, owns (c : Thread nD τ) arg5 fullShare d)
            ∗ (iprop(owns (c : Thread nD τ) arg4 fullShare x0 ∗ (∃ f, arg5.view.loc (c : Thread nD τ) ↦[arg5.view.set]{fullShare} arg5.view.writes (Elt F) f L1)) -∗ K ⟨⟩))
          ⊢ wp frame (wpE (defs₀ (F := F)) Variants.none c none) E (cc0__kernel i tbM0 htbM0 arg4 harg4 arg5 harg5) K } := by
  refine ⟨?_, fun E K => ?run⟩
  case run =>
    simp only [cc0__kernel_eq_skeleton]; unfold cc0__kernel_skel
    unfold owns
    iintro ⟨⟨%f0, %hf0, H0⟩, ⟨%d1, %f1, -, H1⟩, Hk⟩
    obtain rfl := harg4.eq_unread hf0
    sl_exec (disch := first | exact hc0 | exact hc1)
    sl_step
    iapply Hk
    isplitl [H0]
    · iexists _; isplitr; · ipureintro; exact harg4.read_unread _
      iexact H0
    iexists _; iexact H1

end Cert.KernelIdeal.Fr

end
-- ==== Proof.KernelIdeal.RunB.lean ====
/-
  The body at a member other than 0: the first branch is not taken, the second is. On whole staging buffers — the
  input's at its block `x0`, the output's at its running contents `xo1` — the body runs to its end with the input's
  buffer as it was and the output's overwritten by the stores the run lists (one store of the whole block: the
  elementwise maximum of the running contents and the input block).
-/
import proofs.«429363_j59708635349141_3_alg».proof.Proof.KernelIdeal.RunA

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable def kernelRun0_B (c : Dev nD) (i : grid0.Coords) (arg4 : Memref sig .tc .vmem S1x1024x2048 .f32) (harg4 : arg4.IsWhole) (arg5 : Memref sig .tc .vmem S1x1024x2048 .f32) (harg5 : arg5.IsWhole)
    (hc0 : ¬ k0_cond1 i = 1#1) (hc1 : k0_cond2 i = 1#1) (x0 : Vec F S1x1024x2048 .f32) (xo1 : Vec F S1x1024x2048 .f32) :
    { L1 : List (View.Piece (Elt F) S1x1024x2048 .f32) //
      ∀ (E : Set ℕ) (K : PUnit → sProp 𝕄),
        iprop(owns (c : Thread nD τ) arg4 fullShare x0 ∗ owns (c : Thread nD τ) arg5 fullShare xo1
            ∗ (iprop(owns (c : Thread nD τ) arg4 fullShare x0 ∗ (∃ f, arg5.view.loc (c : Thread nD τ) ↦[arg5.view.set]{fullShare} arg5.view.writes (Elt F) f L1)) -∗ K ⟨⟩))
          ⊢ wp frame (wpE (defs₀ (F := F)) Variants.none c none) E (cc0__kernel i tbM0 htbM0 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, Hk⟩
    obtain rfl := harg4.eq_unread hf0; obtain rfl := harg5.eq_unread hf1
    sl_exec (disch := first | exact hc0 | exact hc1)
    sl_step
    iapply Hk
    isplitl [H0]
    · iexists _; isplitr; · ipureintro; exact harg4.read_unread _
      iexact H0
    iexists _; iexact H1

end Cert.KernelIdeal.Fr

end
-- ==== Proof.KernelIdeal.Frame.lean ====
/-
  The pooling kernel's frame: what the output buffer holds after each point, the proof data, the body obligation
  and the run.

  After the body at point `n` the output window's staging buffer holds (`outsAt0`): at member 0 (`n % 6 = 0`) the
  input block of the point; at any other member the elementwise maximum of what the point before left and the
  point's input block — the buffer is not written back between the members of one (tile, subgroup) pair
  (`before0_1_B`), so what the body finds there is what it left. The run (`run_main`) holds for every contents of
  the index array, under the side condition `Ok` of the clamped table.
-/
import proofs.«429363_j59708635349141_3_alg».proof.Proof.KernelIdeal.RunB

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At member 0 the run's one store covers the output block. -/
theorem cover0_A_1 (c : Dev nD) (i : grid0.Coords) (arg4 : Memref sig .tc .vmem S1x1024x2048 .f32) (harg4 : arg4.IsWhole) (arg5 : Memref sig .tc .vmem S1x1024x2048 .f32) (harg5 : arg5.IsWhole)
    (hc0 : k0_cond1 i = 1#1) (hc1 : ¬ k0_cond2 i = 1#1) (x0 : Vec F S1x1024x2048 .f32) (y : S1x1024x2048.Idx) :
    ∃ pc ∈ (kernelRun0_A c i arg4 harg4 arg5 harg5 hc0 hc1 x0).1, y ∈ pc.1.set :=
  View.cover_of_tiledL (kernelRun0_A c i arg4 harg4 arg5 harg5 hc0 hc1 x0).1 S1x1024x2048.size (by sl_kernel_rfl) y

/-- What the body leaves in the output buffer at member 0. -/
def out0_A_1 (c : Dev nD) (i : grid0.Coords) (arg4 : Memref sig .tc .vmem S1x1024x2048 .f32) (harg4 : arg4.IsWhole) (arg5 : Memref sig .tc .vmem S1x1024x2048 .f32) (harg5 : arg5.IsWhole)
    (hc0 : k0_cond1 i = 1#1) (hc1 : ¬ k0_cond2 i = 1#1) (x0 : Vec F S1x1024x2048 .f32) : Vec F S1x1024x2048 .f32 :=
  VO0_1.read (Elt F) (VO0_1.writes (Elt F) VO0_1.junk (kernelRun0_A c i arg4 harg4 arg5 harg5 hc0 hc1 x0).1)

/-- At another member the run's one store covers the output block. -/
theorem cover0_B_1 (c : Dev nD) (i : grid0.Coords) (arg4 : Memref sig .tc .vmem S1x1024x2048 .f32) (harg4 : arg4.IsWhole) (arg5 : Memref sig .tc .vmem S1x1024x2048 .f32) (harg5 : arg5.IsWhole)
    (hc0 : ¬ k0_cond1 i = 1#1) (hc1 : k0_cond2 i = 1#1) (x0 : Vec F S1x1024x2048 .f32) (xo1 : Vec F S1x1024x2048 .f32) (y : S1x1024x2048.Idx) :
    ∃ pc ∈ (kernelRun0_B c i arg4 harg4 arg5 harg5 hc0 hc1 x0 xo1).1, y ∈ pc.1.set :=
  View.cover_of_tiledL (kernelRun0_B c i arg4 harg4 arg5 harg5 hc0 hc1 x0 xo1).1 S1x1024x2048.size (by sl_kernel_rfl) y

/-- What the body leaves in the output buffer at another member, over the running contents `xo1`. -/
def out0_B_1 (c : Dev nD) (i : grid0.Coords) (arg4 : Memref sig .tc .vmem S1x1024x2048 .f32) (harg4 : arg4.IsWhole) (arg5 : Memref sig .tc .vmem S1x1024x2048 .f32) (harg5 : arg5.IsWhole)
    (hc0 : ¬ k0_cond1 i = 1#1) (hc1 : k0_cond2 i = 1#1) (x0 : Vec F S1x1024x2048 .f32) (xo1 : Vec F S1x1024x2048 .f32) : Vec F S1x1024x2048 .f32 :=
  VO0_1.read (Elt F) (VO0_1.writes (Elt F) VO0_1.junk (kernelRun0_B c i arg4 harg4 arg5 harg5 hc0 hc1 x0 xo1).1)

/-! ## What the output buffer holds after each point -/

/-- The accumulation over the members of a (tile, subgroup) pair. -/
def outsAt0 (hO : Ok m) (c : Dev nD) : (n : ℕ) → n < (cfgM m hO).N → Vec F S1x1024x2048 .f32
  | 0, hn => out0_A_1 c (grid0.coords ⟨0, hn⟩) (ms0_0 m hO ⟨0, hn⟩) (hs0_0 m hO ⟨0, hn⟩) (ms0_1 m hO ⟨0, hn⟩) (hs0_1 m hO ⟨0, hn⟩)
      ((hcond0_0 ⟨0, hn⟩).mpr (Nat.zero_mod _)) (fun h => (hcond0_1 ⟨0, hn⟩).mp h (Nat.zero_mod _)) (iblk m hO c 0 ⟨0, hn⟩)
  | n + 1, hn =>
    if h0 : (n + 1) % 6 = 0 then
      out0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩)
        ((hcond0_0 ⟨n + 1, hn⟩).mpr h0) (fun h => (hcond0_1 ⟨n + 1, hn⟩).mp h h0) (iblk m hO c 0 ⟨n + 1, hn⟩)
    else
      out0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩)
        (fun h => h0 ((hcond0_0 ⟨n + 1, hn⟩).mp h)) ((hcond0_1 ⟨n + 1, hn⟩).mpr h0) (iblk m hO c 0 ⟨n + 1, hn⟩) (outsAt0 hO c n (Nat.lt_of_succ_lt hn))

theorem outsAt0_A (hO : Ok m) (c : Dev nD) (t : Fin (cfgM m hO).N) (h0 : t.val % 6 = 0) :
    outsAt0 m hO c t.val t.isLt = out0_A_1 c (grid0.coords t) (ms0_0 m hO t) (hs0_0 m hO t) (ms0_1 m hO t) (hs0_1 m hO t)
      ((hcond0_0 t).mpr h0) (fun h => (hcond0_1 t).mp h h0) (iblk m hO c 0 t) := by
  obtain ⟨n, hn⟩ := t
  dsimp only at h0 ⊢
  cases n with
  | zero => rw [outsAt0]
  | succ n => rw [outsAt0, dif_pos h0]

theorem outsAt0_B (hO : Ok m) (c : Dev nD) (t : Fin (cfgM m hO).N) (h0 : ¬ t.val % 6 = 0) :
    outsAt0 m hO c t.val t.isLt = out0_B_1 c (grid0.coords t) (ms0_0 m hO t) (hs0_0 m hO t) (ms0_1 m hO t) (hs0_1 m hO t)
      (fun h => h0 ((hcond0_0 t).mp h)) ((hcond0_1 t).mpr h0) (iblk m hO c 0 t) (outsAt0 m hO c (t.val - 1) (Nat.lt_of_le_of_lt (Nat.sub_le _ _) t.isLt)) := by
  obtain ⟨n, hn⟩ := t
  dsimp only at h0 ⊢
  cases n with
  | zero => exact absurd (Nat.zero_mod _) h0
  | succ n => simp only [Nat.add_one_sub_one]; rw [outsAt0, dif_neg h0]

/-! ## The proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => (outsAt0 m hO c t.val t.isLt)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = (outsAt0 m hO c t.val t.isLt) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d

/-- At a member other than 0 the output buffer holds what the body left at the point before: not the first point,
    and the buffer was not written back between. -/
theorem before0_1_B (hO : Ok m) (c : Dev nD) (t : Fin (cfgM m hO).N) (h0 : ¬ t.val % 6 = 0) (d) :
    (dats m hO 0 c).before 1 t d = (outsAt0 m hO c (t.val - 1) (Nat.lt_of_le_of_lt (Nat.sub_le _ _) t.isLt)) := by
  have hN : t.val < 48 := lt_of_lt_of_eq t.isLt (show (cfgM m hO).N = 48 from N_0)
  refine (Dat.before_out_kept (dats m hO 0 c) 1 rfl t (by omega) (Bool.eq_false_iff.mpr fun h => by have := (flush0_1 _ _).mp h; dsimp only at this; omega)
    (fun i => idle0_1 i) (fun _ _ => rfl) d).trans ?_
  exact after0_1 m hO c ⟨t.val - 1, Nat.lt_of_le_of_lt (Nat.sub_le _ _) t.isLt⟩

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t))

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0]
  rw [show (dats m hO 0 c).Φ t.succ = (dats m hO 0 c).Φ t.castSucc from rfl,
    show (dats m hO 0 c).owesAt () t.succ = (dats m hO 0 c).owesAt () t.castSucc from rfl,
    after0_0, after0_1]
  by_cases h0 : t.val % 6 = 0
  · rw [outsAt0_A m hO c t h0]
    unfold out0_A_1
    iintro ⟨HΦ, Ho, ⟨%d0, H0⟩, ⟨%d1, H1⟩⟩
    iapply ((kernelRun0_A c (grid0.coords t) _ _ _ _ ((hcond0_0 t).mpr h0) (fun h => (hcond0_1 t).mp h h0) (iblk m hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · rw [outsAt0_B m hO c t h0]
    simp only [before0_1_B m hO c t h0]
    unfold out0_B_1
    iintro ⟨HΦ, Ho, ⟨%d0, H0⟩, ⟨%d1, H1⟩⟩
    iapply ((kernelRun0_B c (grid0.coords t) _ _ _ _ (fun h => h0 ((hcond0_0 t).mp h)) ((hcond0_1 t).mpr h0) (iblk m hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

theorem body_obligation (hO : Ok m) (c : Dev nD) : BodyObligation (dats (F := F) m hO 0 c) (defs₀ (F := F)) Variants.none () Set.univ := fun t => by
  rw [bigSep_W0, bigSep_W0]
  have hi : (cfgM m hO).idle (1 : Fin 2) ((cfgM m hO).grid.coords t) = false := idle0_1 _
  rw [hi]
  exact sound_body m hO c t

/-! ## The run and the frame -/

set_option backward.isDefEq.respectTransparency.types false in
/-- From any memory with zero counters every weakly fair execution of @main terminates, each array of the pipeline
    ends at what the proof data say, and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  Pipeline.θ_run_frameP pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The frame: the program runs to the end and its two argument arrays end unchanged, for every contents of the
    index array, under the table's side condition. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ hO (dats m hO) (A_eq m hO) (run_main m ρ hO)

end Cert.KernelIdeal.Fr

end
-- ==== Proof.KernelIdeal.Table.lean ====
/-
  The prefetched table is the clamped index array, and its side condition holds for every index array.

  The host operations before the region clamp each index word to `0 … 11` (the signed maximum with 0, then the
  signed minimum with 11): that array is the table the input window's index map reads (`tbl_eq`). At grid point
  (tile, subgroup, member) the map selects block (table[subgroup, member], tile, 0) of `P` in blocks of
  1 × 1024 × 2048 (`index0`, at any contents of the table). A clamped word is below 12 and a tile below 4, so
  every selected block lies inside `P` (`ok`).
-/
import proofs.«429363_j59708635349141_3_alg».proof.Proof.KernelIdeal.Base
import proofs.«429363_j59708635349141_3_alg».proof.Proof.IndexWords
import Idealize.ShloMosaic.Lib.StableHlo.Run
import Idealize.ShloMosaic.Lib.ValueIdx

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The table holds the clamp of each index word. -/
theorem tbl_eq (i : S2x6.Idx) :
    (tbl m 0 : S2x6.Idx → BitVec 32) i = Cert.Pool.Words.clipW ((m (((0 : Dev nD) : Thread nD τ).loc main_arg1) : S2x6.Idx → BitVec 32) i) := by
  have e : (V m (0 : Dev nD) main_v0 : S2x6.Idx → BitVec 32)
      = minsi (broadcastInDim S2x6 ![] Gen.bcast_S_S2x6 (id (constantI S_ 32 11#32)))
          (maxsi (broadcastInDim S2x6 ![] Gen.bcast_S_S2x6 (id (constantI S_ 32 0#32))) (m (((0 : Dev nD) : Thread nD τ).loc main_arg1))) := by
    dsimp only [V]
    simp only [hostOps0, hostOps0_1, List.flatten_cons, List.flatten_nil, List.append_nil, List.cons_append, List.nil_append]
    after_results
    rfl
  show (V m (0 : Dev nD) main_v0 : S2x6.Idx → BitVec 32) i = _
  rw [e]
  exact Cert.Pool.Words.clip_apply Gen.bcast_S_S2x6 _ i

/-- The input window's index map at any contents `pf` of the table, at a point of subgroup `s`, member `j`:
    the table word at `(s, j)`, the tile, and 0. -/
theorem index0 (pf : pre0.Contents (Elt F)) (i : grid0.Coords) (s : Fin 2) (j : Fin 6) (hs : (i 1).val = s.val) (hj : (i 2).val = j.val) :
    cc0_transform_0 k0_off1_inb numel1_S1x1 pf i = ![((pf 0 : S2x6.Idx → BitVec 32) (ix2 s j)).toNat, (i 0).val, 0] := by
  have ho := k0_off1_eq i
  have ho0 : k0_off1 i 0 = (i 1).val := congrFun ho 0
  have ho1 : k0_off1 i 1 = (i 2).val := congrFun ho 1
  have h0lt : (i 0).val < 4 := (i 0).isLt
  funext a
  match a with
  | ⟨0, _⟩ =>
    show ((pf 0 : S2x6.Idx → BitVec 32) ((Rect.unit (s := S2x6) (k0_off1 i) S1x1.size (k0_off1_inb i)).emb (Shape.Idx.first (numel1_S1x1.symm ▸ Nat.one_pos)))).toNat = _
    refine congrArg (fun x => ((pf 0 : S2x6.Idx → BitVec 32) x).toNat) (funext fun b => Fin.ext ?_)
    match b with
    | ⟨0, _⟩ => show k0_off1 i 0 + 1 * 0 = s.val; omega
    | ⟨1, _⟩ => show k0_off1 i 1 + 1 * 0 = j.val; omega
  | ⟨1, _⟩ =>
    show (BitVec.ofNat 32 (i 0).val).toNat = (i 0).val
    rw [BitVec.toNat_ofNat]; omega
  | ⟨2, _⟩ => rfl

/-- Every block the input window's index map selects lies inside `P`, whatever the index array holds. -/
theorem ok : Ok m := fun i => by
  have h0lt : (i 0).val < 4 := (i 0).isLt
  have hw := Cert.Pool.Words.clipW_lt ((m (((0 : Dev nD) : Thread nD τ).loc main_arg1) : S2x6.Idx → BitVec 32) (ix2 ⟨(i 1).val, (i 1).isLt⟩ ⟨(i 2).val, (i 2).isLt⟩))
  rw [← tbl_eq] at hw
  refine ⟨fun a => ?_, .inl rfl⟩
  rw [index0 (tbl m) i ⟨(i 1).val, (i 1).isLt⟩ ⟨(i 2).val, (i 2).isLt⟩ rfl rfl]
  match a with
  | ⟨0, _⟩ => show (((tbl m 0 : S2x6.Idx → BitVec 32) (ix2 ⟨(i 1).val, (i 1).isLt⟩ ⟨(i 2).val, (i 2).isLt⟩)).toNat + 1) * 1 ≤ 12; omega
  | ⟨1, _⟩ => show ((i 0).val + 1) * 1024 ≤ 4096; omega
  | ⟨2, _⟩ => show (0 + 1) * 2048 ≤ 2048; omega

end Cert.KernelIdeal.Fr

end
-- ==== Proof.KernelIdeal.ValueCases.lean ====
/-
  The pooling kernel, value side: what each case of the body leaves, and the blocks read at an index.

  At member 0 the body leaves the input block in the output buffer (`out_A`); at any other member the elementwise
  maximum of the buffer's running contents and the input block (`out_B`). Point `t` of the 4 × 2 × 6 grid is
  tile `t / 12`, subgroup `t / 6 % 2`, member `t % 6` (`coords_val`). At a point of tile `tt`, subgroup `s`,
  member `j`, the input window's block read at `(0, r, d)` is the array at
  `(table[s, j], tt · 1024 + r, d)` (`blk0_read`, for any contents of the table), and the output window's block
  read at `(0, r, d)` is the array at `(0, tt · 1024 + r, s · 2048 + d)` (`blk1_read`).
-/
import proofs.«429363_j59708635349141_3_alg».proof.Proof.KernelIdeal.Frame
import proofs.«429363_j59708635349141_3_alg».proof.Proof.KernelIdeal.Table
import Idealize.ShloMosaic.Lib.Pipeline.Value
import Idealize.ShloMosaic.Lib.ValueIdx

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem hz : (![0, 0, 0] : Fin 3 → Nat) = fun _ => 0 := funext fun a => by fin_cases a <;> rfl

/-- Member 0: the body's one store covers the output block with the input block. -/
theorem out_A (c : Dev nD) (i : grid0.Coords) (a4 : Memref sig .tc .vmem S1x1024x2048 .f32) (h4 : a4.IsWhole) (a5 : Memref sig .tc .vmem S1x1024x2048 .f32) (h5 : a5.IsWhole)
    (hc0 : k0_cond1 i = 1#1) (hc1 : ¬ k0_cond2 i = 1#1) (x : Vec F S1x1024x2048 .f32) :
    out0_A_1 c i a4 h4 a5 h5 hc0 hc1 x = x := by
  unfold out0_A_1
  rw [View.read_writes_eq_canon _ _ _ (cover0_A_1 c i a4 h4 a5 h5 hc0 hc1 x)]
  unfold kernelRun0_A
  dsimp only
  rw [View.canon_unit_zero hz]
  simp only [View.readAt_eq_ld, h4.read_unread, View.ld_unit_zero (S := S1x1024x2048) hz]

/-- Another member: the body's one store covers the output block with the maximum of its running contents and
    the input block. -/
theorem out_B (c : Dev nD) (i : grid0.Coords) (a4 : Memref sig .tc .vmem S1x1024x2048 .f32) (h4 : a4.IsWhole) (a5 : Memref sig .tc .vmem S1x1024x2048 .f32) (h5 : a5.IsWhole)
    (hc0 : ¬ k0_cond1 i = 1#1) (hc1 : k0_cond2 i = 1#1) (x xo : Vec F S1x1024x2048 .f32) :
    out0_B_1 c i a4 h4 a5 h5 hc0 hc1 x xo = maximumf xo x := by
  unfold out0_B_1
  rw [View.read_writes_eq_canon _ _ _ (cover0_B_1 c i a4 h4 a5 h5 hc0 hc1 x xo)]
  unfold kernelRun0_B
  dsimp only
  rw [View.canon_unit_zero hz]
  unfold k0_pay1
  simp only [View.readAt_eq_ld, h4.read_unread, h5.read_unread, View.ld_unit_zero (S := S1x1024x2048) hz, shapeCast_self]

/-! ## The grid in closed form -/

/-- Point `t` is tile `t / 12`, subgroup `t / 6 % 2`, member `t % 6`. -/
theorem coords_val : ∀ t : Fin grid0.N, ((grid0.coords t) 0).val = t.val / 12 ∧ ((grid0.coords t) 1).val = t.val / 6 % 2
    ∧ ((grid0.coords t) 2).val = t.val % 6 := by decide +kernel

/-- The output window's block index at point `t`: (0, tile, subgroup). -/
theorem index1_val : ∀ t : Fin grid0.N, cc0_transform_1 (grid0.coords t) = ![0, t.val / 12, t.val / 6 % 2] := by decide +kernel

/-! ## The blocks read at an index, at any contents of the table -/

/-- The input window's block at a point of tile `tt`, subgroup `s`, member `j`, read at `(0, r, d)`: the array at
    the row the table word at `(s, j)` names (`p`), frame `tt · 1024 + r`, channel `d`. -/
theorem blk0_read (a : (pcfg0 (F := F)).Adm) (A0 : S12x4096x2048.Idx → Elt F .f32) (t : Fin (cfg0 a).N) (tt : Fin 4) (s : Fin 2) (j : Fin 6)
    (ht : t.val = (tt.val * 2 + s.val) * 6 + j.val) (p : Fin 12) (hp : p.val = ((a.1 0 : S2x6.Idx → BitVec 32) (ix2 s j)).toNat)
    (r : Fin 1024) (d : Fin 2048) :
    ((((cfg0 a).win 0).blk t).view.read (Elt F) A0 : S1x1024x2048.Idx → Elt F .f32) (ix3 (0 : Fin 1) r d)
      = A0 (ix3 p (⟨tt.val * 1024 + r.val, by omega⟩ : Fin 4096) d) := by
  obtain ⟨g0, g1, g2⟩ := coords_val t
  have hidx := index0 a.1 (grid0.coords t) s j (by omega) (by omega)
  show A0 ((((cfg0 a).win 0).blk t).view.emb (ix3 (0 : Fin 1) r d)) = _
  refine congrArg A0 (funext fun k => Fin.ext ?_)
  match k with
  | ⟨0, _⟩ =>
    show cc0_transform_0 k0_off1_inb numel1_S1x1 a.1 (grid0.coords t) 0 * 1 + 1 * 0 = p.val
    rw [hidx]; show ((a.1 0 : S2x6.Idx → BitVec 32) (ix2 s j)).toNat * 1 + 1 * 0 = p.val; omega
  | ⟨1, _⟩ =>
    show cc0_transform_0 k0_off1_inb numel1_S1x1 a.1 (grid0.coords t) 1 * 1024 + 1 * r.val = tt.val * 1024 + r.val
    rw [hidx]; show ((grid0.coords t) 0).val * 1024 + 1 * r.val = _; omega
  | ⟨2, _⟩ =>
    show cc0_transform_0 k0_off1_inb numel1_S1x1 a.1 (grid0.coords t) 2 * 2048 + 1 * d.val = d.val
    rw [hidx]; show 0 * 2048 + 1 * d.val = _; omega

/-- The output window's block at a point of tile `tt`, subgroup `s`, read at `(0, r, d)`: the array at
    `(0, tt · 1024 + r, s · 2048 + d)`. -/
theorem blk1_read (a : (pcfg0 (F := F)).Adm) (A1 : S1x4096x4096.Idx → Elt F .f32) (t : Fin (cfg0 a).N) (tt : Fin 4) (s : Fin 2) (j : Fin 6)
    (ht : t.val = (tt.val * 2 + s.val) * 6 + j.val) (r : Fin 1024) (d : Fin 2048) :
    ((((cfg0 a).win 1).blk t).view.read (Elt F) A1 : S1x1024x2048.Idx → Elt F .f32) (ix3 (0 : Fin 1) r d)
      = A1 (ix3 (0 : Fin 1) (⟨tt.val * 1024 + r.val, by omega⟩ : Fin 4096) (⟨s.val * 2048 + d.val, by omega⟩ : Fin 4096)) := by
  have hidx := index1_val t
  show A1 ((((cfg0 a).win 1).blk t).view.emb (ix3 (0 : Fin 1) r d)) = _
  refine congrArg A1 (funext fun k => Fin.ext ?_)
  match k with
  | ⟨0, _⟩ =>
    show cc0_transform_1 (grid0.coords t) 0 * 1 + 1 * 0 = 0
    rw [hidx]; rfl
  | ⟨1, _⟩ =>
    show cc0_transform_1 (grid0.coords t) 1 * 1024 + 1 * r.val = tt.val * 1024 + r.val
    rw [hidx]; show t.val / 12 * 1024 + 1 * r.val = _; omega
  | ⟨2, _⟩ =>
    show cc0_transform_1 (grid0.coords t) 2 * 2048 + 1 * d.val = s.val * 2048 + d.val
    rw [hidx]; show t.val / 6 % 2 * 2048 + 1 * d.val = _; omega

end Cert.KernelIdeal.Fr

end
-- ==== Proof.KernelIdeal.ValueArray.lean ====
/-
  What the pooling kernel's result array holds, over the extended reals.

  Write `P` for the array argument and `I` for the index argument as launched. The table word at (subgroup `s`,
  member `j`) is the clamp of `I[s, j]`, which as a number is the specification's row of that word, so the input
  block of the point (tile `tt`, `s`, `j`) read at `(0, r, d)` is member `j`'s entry at frame `tt · 1024 + r`,
  channel `d` (`iblk_apply`). By induction on the member, the output buffer after that point holds, at `(0, r, d)`,
  the maximum over members `0 … j` (`outsAt_eq`): member 0 copies, each further member is one binary maximum.
  The buffer is written back after member 5, when it holds the maximum over all six: block (0, tile, subgroup) of
  the pooled array (`flushed_eq`). Every index (0, T, C) of the result lies in the block written back at the point
  (T / 1024, C / 2048, 5) (`cover`), so the result array ends as the pooled array (`final`, `run`).
-/
import proofs.«429363_j59708635349141_3_alg».proof.Proof.KernelIdeal.ValueCases
import proofs.«429363_j59708635349141_3_alg».proof.Proof.PoolSpec

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx
open Cert.Pool (SP SI SO row member pooledAt runMax pooled runMax_zero runMax_succ runMax_five)

variable (mi : (ℓ : Loc nD τ sig) → Buf (Elt Ideal) ℓ)

/-- The array argument and the index argument, as launched. -/
abbrev Parr (c : Dev nD) : FVec Ideal SP .f32 := mi ((c : Thread nD τ).loc main_arg0)
abbrev Iarr (c : Dev nD) : IVec SI 32 := mi ((c : Thread nD τ).loc main_arg1)

/-- The table word at `(s, j)` names the specification's row of the index word. -/
theorem tbl_row (s : Fin 2) (j : Fin 6) :
    (row (Iarr mi 0 (ix2 s j))).val = ((tbl mi 0 : S2x6.Idx → BitVec 32) (ix2 s j)).toNat := by
  rw [tbl_eq, Cert.Pool.Words.clipW_toNat]

/-- The input block at the point (tile `tt`, subgroup `s`, member `j`), at `(0, r, d)`: member `j`'s entry. -/
theorem iblk_apply (c : Dev nD) (t : Fin (cfgM mi (ok mi)).N) (tt : Fin 4) (s : Fin 2) (j : Fin 6)
    (ht : t.val = (tt.val * 2 + s.val) * 6 + j.val) (r : Fin 1024) (d : Fin 2048) :
    (iblk mi (ok mi) c 0 t : Vec Ideal S1x1024x2048 .f32) (ix3 (0 : Fin 1) r d)
      = member (Parr mi c) (Iarr mi c) s (⟨tt.val * 1024 + r.val, by omega⟩ : Fin 4096) d j := by
  obtain rfl : c = 0 := Subsingleton.elim _ _
  unfold iblk member
  refine (blk0_read (adm mi (ok mi)) _ t tt s j ht (row (Iarr mi 0 (ix2 s j))) (tbl_row mi s j) r d).trans ?_
  exact congrFun (V_main_arg0 mi 0) _

/-- After the point (tile `tt`, subgroup `s`, member `j`) the output buffer holds, at `(0, r, d)`, the maximum
    over the members `0 … j`. -/
theorem outsAt_eq (c : Dev nD) (tt : Fin 4) (s : Fin 2) : ∀ (j : ℕ) (hj : j < 6) (n : ℕ) (hn : n < (cfgM mi (ok mi)).N),
    n = (tt.val * 2 + s.val) * 6 + j → ∀ (r : Fin 1024) (d : Fin 2048),
    (outsAt0 mi (ok mi) c n hn : Vec Ideal S1x1024x2048 .f32) (ix3 (0 : Fin 1) r d)
      = runMax (Parr mi c) (Iarr mi c) s (⟨tt.val * 1024 + r.val, by omega⟩ : Fin 4096) d j
  | 0, hj, n, hn, hnj, r, d => by
    have h0 : (⟨n, hn⟩ : Fin (cfgM mi (ok mi)).N).val % 6 = 0 := by dsimp only; omega
    refine (congrFun ((outsAt0_A mi (ok mi) c ⟨n, hn⟩ h0).trans (out_A ..)) _).trans ?_
    rw [runMax_zero]
    exact iblk_apply mi c ⟨n, hn⟩ tt s 0 (by dsimp only; omega) r d
  | j + 1, hj, n, hn, hnj, r, d => by
    have h0 : ¬ (⟨n, hn⟩ : Fin (cfgM mi (ok mi)).N).val % 6 = 0 := by dsimp only; omega
    refine (congrFun ((outsAt0_B mi (ok mi) c ⟨n, hn⟩ h0).trans (out_B ..)) _).trans ?_
    rw [runMax_succ _ _ _ _ _ j hj]
    refine (maximumf_apply (s := S1x1024x2048) (φ := .f32) _ _ _).trans ?_
    refine congrArg₂ max ?_ ?_
    · exact outsAt_eq c tt s j (by omega) (n - 1) _ (by omega) r d
    · exact iblk_apply mi c ⟨n, hn⟩ tt s ⟨j + 1, hj⟩ (by dsimp only; omega) r d

/-- What a write-back writes: block (0, tile, subgroup) of the pooled array. -/
theorem flushed_eq (c : Dev nD) (t : Fin (cfgM mi (ok mi)).N) (hf : ((cfgM mi (ok mi)).win 1).flush t = true) :
    (dats mi (ok mi) 0 c).flushed 1 t = (((cfgM mi (ok mi)).win 1).blk t).view.read (Elt Ideal) (pooled (Parr mi c) (Iarr mi c)) := by
  have h5 : t.val % 6 = 5 := (flush0_1 _ t).mp hf
  have hN : t.val < 48 := lt_of_lt_of_eq t.isLt N_0
  have htt : t.val / 12 < 4 := by omega
  have hs : t.val / 6 % 2 < 2 := by omega
  show ((cfgM mi (ok mi)).win 1).cut (grid0.coords t) ((dats mi (ok mi) 0 c).after 1 t) = _
  rw [after0_1]
  refine funext fun (y : S1x1024x2048.Idx) => ?_
  obtain ⟨z, r, d, rfl⟩ : ∃ (z : Fin 1) (r : Fin 1024) (d : Fin 2048), y = ix3 z r d := ⟨y 0, y 1, y 2, eq_ix3 y⟩
  obtain rfl : z = 0 := Subsingleton.elim _ _
  refine Eq.trans ?_ (blk1_read (adm mi (ok mi)) (pooled (Parr mi c) (Iarr mi c)) t ⟨t.val / 12, htt⟩ ⟨t.val / 6 % 2, hs⟩ ⟨5, by omega⟩
    (by dsimp only; omega) r d).symm
  refine (outsAt_eq mi c ⟨t.val / 12, htt⟩ ⟨t.val / 6 % 2, hs⟩ 5 (by omega) t.val t.isLt (by dsimp only; omega) r d).trans ?_
  rw [runMax_five]
  unfold pooled
  have hd := d.isLt
  congr 1 <;> exact Fin.ext (by dsimp only [ix3]; omega)

/-- An index `(0, T, C)` of the result lies in the block of any point whose number is that of
    (T / 1024, C / 2048, 5). -/
theorem mem_blk (i : S1x4096x4096.Idx) (t : Fin (cfgM mi (ok mi)).N)
    (ht : t.val = ((i 1).val / 1024 * 2 + (i 2).val / 2048) * 6 + 5) :
    i ∈ (((cfgM mi (ok mi)).win 1).blk t).view.set := by
  have h0 : (i 0).val < 1 := (i 0).isLt
  have h1 : (i 1).val < 4096 := (i 1).isLt
  have h2 : (i 2).val < 4096 := (i 2).isLt
  have hidx := index1_val t
  have e : ((View.whole main_v1).slice (((cfgM mi (ok mi)).win 1).rect t)).set = (((cfgM mi (ok mi)).win 1).rect t).set :=
    View.set_slice_whole main_v1 _
  show i ∈ ((View.whole main_v1).slice (((cfgM mi (ok mi)).win 1).rect t)).set
  rw [e]
  refine Rect.mem_set_unit.mpr fun a => ?_
  match a with
  | ⟨0, _⟩ =>
    show cc0_transform_1 (grid0.coords t) 0 * 1 ≤ (i 0).val ∧ (i 0).val < cc0_transform_1 (grid0.coords t) 0 * 1 + 1
    rw [hidx]; show 0 * 1 ≤ (i 0).val ∧ (i 0).val < 0 * 1 + 1; omega
  | ⟨1, _⟩ =>
    show cc0_transform_1 (grid0.coords t) 1 * 1024 ≤ (i 1).val ∧ (i 1).val < cc0_transform_1 (grid0.coords t) 1 * 1024 + 1024
    rw [hidx]; show t.val / 12 * 1024 ≤ (i 1).val ∧ (i 1).val < t.val / 12 * 1024 + 1024; omega
  | ⟨2, _⟩ =>
    show cc0_transform_1 (grid0.coords t) 2 * 2048 ≤ (i 2).val ∧ (i 2).val < cc0_transform_1 (grid0.coords t) 2 * 2048 + 2048
    rw [hidx]; show t.val / 6 % 2 * 2048 ≤ (i 2).val ∧ (i 2).val < t.val / 6 % 2 * 2048 + 2048; omega

/-- Every index of the result lies in a block that is written back. -/
theorem cover (i : S1x4096x4096.Idx) :
    ∃ t : Fin (cfgM mi (ok mi)).N, ((cfgM mi (ok mi)).win 1).flush t = true ∧ i ∈ (((cfgM mi (ok mi)).win 1).blk t).view.set := by
  have h1 : (i 1).val < 4096 := (i 1).isLt
  have h2 : (i 2).val < 4096 := (i 2).isLt
  have hn : ((i 1).val / 1024 * 2 + (i 2).val / 2048) * 6 + 5 < 48 := by omega
  exact ⟨⟨((i 1).val / 1024 * 2 + (i 2).val / 2048) * 6 + 5, lt_of_lt_of_eq hn N_0.symm⟩,
    (flush0_1 _ _).mpr (by dsimp only; omega), mem_blk mi i _ rfl⟩

/-- The result array ends as the pooled array. -/
theorem final (c : Dev nD) : (dats mi (ok mi) 0 c).arrAt 1 (cfgM mi (ok mi)).N = pooled (Parr mi c) (Iarr mi c) :=
  (dats mi (ok mi) 0 c).arrAt_eq_of_cover 1 (pooled (Parr mi c) (Iarr mi c)) (flushed_eq mi c) (fun i => cover mi i)

/-- The run, read: the result array at the pooled array of the launched arguments, the arguments unchanged — for
    every contents of the index array. -/
theorem run : θ_run defs (onTc (τ := τ) (main (F := Ideal))) ⟨mi, fun _ => 0, ρ⟩ fun r => ∀ c : Dev nD,
      r.2.mem ((c : Thread nD τ).loc main_v1) = pooled (Parr mi c) (Iarr mi c)
      ∧ r.2.mem ((c : Thread nD τ).loc main_arg0) = mi ((c : Thread nD τ).loc main_arg0)
      ∧ r.2.mem ((c : Thread nD τ).loc main_arg1) = mi ((c : Thread nD τ).loc main_arg1) :=
  (θ_run defs _ _).mono (fun _ h c => ⟨((h c).1 1).trans (final mi c),
      ((h c).1 0).trans (((dats mi (ok mi) 0 c).arrAt_in 0 rfl _).trans ((A_eq mi (ok mi) c 0).trans (V_main_arg0 mi c))),
      ((h c).2 main_arg1 (by decide : main_arg1 ∈ Pipeline.restRefs sig spec0)).trans (V_main_arg1 mi c)⟩)
    (run_main mi ρ (ok mi))

end Cert.KernelIdeal.Fr

end
-- ==== Proof.RefPool.lean ====
/-
  The reference program's result is the pooled array.

  The reference computes, from `P : [12, 4096, 2048]` and the index words `idx : [2, 6]`: the wrapped indices
  `select(idx <s 0, idx + 12, idx)`, laid out as start indices `[2, 6, 1]`; a gather of whole `[4096, 2048]` slabs of `P`
  at those start indices (each read signed and clamped to `0 … 11`), of shape `[2, 6, 4096, 2048]`; the maximum over
  axis 1 (the six members) from the initial value `−∞`; and three layout stages (transpose `[1, 0, 2]`, reshape to
  `[4096, 4096]`, broadcast to `[1, 4096, 4096]`) that put subgroup `s`'s channel `d` in column `s · 2048 + d`.

  When every index word is non-negative (read signed) the wrap is the identity, so the gathered player row is the word
  clamped to `0 … 11`, which is `Cert.Pool.row`. The maximum from `−∞` (the bottom of the extended reals) over the six
  members is their supremum, `Cert.Pool.pooledAt`. Reading the layout stages back sends result index `(0, T, c)` to
  `(c / 2048, T, c % 2048)`, which is how `Cert.Pool.pooled` is stated.

  The stages `val_main_vN` and their `_apply` lemmas come from the generated module; the gather and the reduction are
  read here.
-/
import proofs.«429363_j59708635349141_3_alg».proof.Proof.PoolSpec
import proofs.«429363_j59708635349141_3_alg».proof.Proof.Gen.ReferenceIdeal.Read
import Idealize.ShloMosaic.PureOps.Reduce
import Idealize.ShloMosaic.Lib.ValueIdx

noncomputable section

namespace Cert.ReferenceIdeal.RefPool

open Cert.ReferenceIdeal Cert.ReferenceIdeal.Gen Cert.ReferenceIdeal.Read Idealize.ShloMosaic Idealize.ShloMosaic.ValueIdx
open Cert.Pool (SP SI SO row member pooledAt pooled)

/-! ## The start indices

Under the hypothesis that every index word is non-negative (read signed), the wrap
`select(idx <s 0, idx + 12, idx)` returns the word itself. -/

/-- A word whose signed value is not negative does not compare below zero. -/
theorem slt_zero_of_nonneg (w : BitVec 32) (h : 0 ≤ w.toInt) : IntOp.cmpi .slt w 0#32 = 0#1 := by
  unfold IntOp.cmpi
  simp only [BitVec.slt, BitVec.toInt_zero]
  rw [decide_eq_false (by omega)]
  rfl

/-- The start-index array `[2, 6, 1]` at `(s, j, 0)` is the index word `idx[s, j]`. -/
theorem start_word (idx : IVec SI 32) (hidx : ∀ i, 0 ≤ (idx i).toInt) (s : Fin 2) (j : Fin 6) :
    val_main_v5 (F := Ideal) idx (ix3 s j (0 : Fin 1)) = idx (ix2 s j) := by
  have hi : idx_main_v5 (ix3 s j (0 : Fin 1)) = ix2 s j := by
    funext a; match a with | ⟨0, _⟩ => rfl | ⟨1, _⟩ => rfl
  rw [val_main_v5_apply, hi, val_main_v4_apply, val_main_v1_apply, val_main_v0_apply, val_main_c_apply,
    slt_zero_of_nonneg _ (hidx _), select_zero]

/-! ## The gather

Operand axis 0 is collapsed and start-indexed (slice size 1), axes 1 and 2 are offset axes taken whole; there are no
batching axes. So the operand index of result index `(s, j, T, d)` is `(clamp(start[s, j, 0]), T, d)`, the clamp to
`0 … 12 − 1`. -/

/-- The gather's dimension numbers. -/
abbrev G := gather_S12x4096x2048_S2x6x1_S2x6x4096x2048_23_0_n_n_0_2_140962048

set_option maxHeartbeats 50000 in
/-- Axis 0 of the operand: the start index word read signed and clamped to `0 … 11`. -/
theorem operand_axis0 (w : IVec S2x6x1 32) (s : Fin 2) (j : Fin 6) (T : Fin 4096) (d : Fin 2048) :
    G.start (ix4 s j T d) w 0 + G.batchCoord (ix4 s j T d) 0 + G.offCoord (ix4 s j T d) 0
      = min (w (ix3 s j (0 : Fin 1))).toInt.toNat 11 := by
  have hm : (0 : Fin 3) ∈ G.startIndexMap := List.mem_singleton.mpr rfl
  have hsi : G.siIdx (ix4 s j T d) ⟨List.idxOf (0 : Fin 3) G.startIndexMap, List.idxOf_lt_length_iff.2 hm⟩
      = ix3 s j (0 : Fin 1) := by
    funext b; refine Fin.ext ?_
    match b with
    | ⟨0, _⟩ => rfl
    | ⟨1, _⟩ => rfl
    | ⟨2, _⟩ => rfl
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos hm, hsi]
  rfl

set_option maxHeartbeats 50000 in
/-- Axis 1 of the operand is the first offset axis: the result's coordinate 2. -/
theorem operand_axis1 (w : IVec S2x6x1 32) (s : Fin 2) (j : Fin 6) (T : Fin 4096) (d : Fin 2048) :
    G.start (ix4 s j T d) w 1 + G.batchCoord (ix4 s j T d) 1 + G.offCoord (ix4 s j T d) 1 = T.val := by
  have hm : (1 : Fin 3) ∉ G.startIndexMap := by decide
  have hk : (1 : Fin 3) ∈ G.sKept := (GatherDims.mem_sKept _ _).mpr ⟨by decide, List.not_mem_nil⟩
  rw [GatherDims.batchCoord_eq_zero _ _ _ List.not_mem_nil, Nat.add_zero]
  unfold GatherDims.start
  rw [dif_neg hm, Nat.zero_add]
  unfold GatherDims.offCoord
  rw [dif_pos hk]
  rfl

set_option maxHeartbeats 50000 in
/-- Axis 2 of the operand is the second offset axis: the result's coordinate 3. -/
theorem operand_axis2 (w : IVec S2x6x1 32) (s : Fin 2) (j : Fin 6) (T : Fin 4096) (d : Fin 2048) :
    G.start (ix4 s j T d) w 2 + G.batchCoord (ix4 s j T d) 2 + G.offCoord (ix4 s j T d) 2 = d.val := by
  have hm : (2 : Fin 3) ∉ G.startIndexMap := by decide
  have hk : (2 : Fin 3) ∈ G.sKept := (GatherDims.mem_sKept _ _).mpr ⟨by decide, List.not_mem_nil⟩
  rw [GatherDims.batchCoord_eq_zero _ _ _ List.not_mem_nil, Nat.add_zero]
  unfold GatherDims.start
  rw [dif_neg hm, Nat.zero_add]
  unfold GatherDims.offCoord
  rw [dif_pos hk]
  rfl

set_option maxHeartbeats 50000 in
/-- The gather read at `(s, j, T, d)`: the operand's slab at the clamped start index, at `(T, d)`. -/
theorem gather_read {α : Type} (P : S12x4096x2048.Idx → α) (w : IVec S2x6x1 32) (s : Fin 2) (j : Fin 6) (T : Fin 4096)
    (d : Fin 2048) :
    Host.gather G P w (ix4 s j T d)
      = P (ix3 (⟨min (w (ix3 s j (0 : Fin 1))).toInt.toNat 11, by omega⟩ : Fin 12) T d) := by
  unfold Host.gather
  congr 1
  funext a
  refine Fin.ext ?_
  match a with
  | ⟨0, _⟩ => exact operand_axis0 w s j T d
  | ⟨1, _⟩ => exact operand_axis1 w s j T d
  | ⟨2, _⟩ => exact operand_axis2 w s j T d

/-- Stage 6 at `(s, j, T, d)` is member `j` of subgroup `s` at frame `T`, channel `d`. -/
theorem v6_read (P : FVec Ideal SP .f32) (idx : IVec SI 32) (hidx : ∀ i, 0 ≤ (idx i).toInt) (s : Fin 2) (j : Fin 6)
    (T : Fin 4096) (d : Fin 2048) :
    val_main_v6 (F := Ideal) P idx (ix4 s j T d) = member P idx s T d j := by
  have hrow : (⟨min (val_main_v5 (F := Ideal) idx (ix3 s j (0 : Fin 1))).toInt.toNat 11, by omega⟩ : Fin 12)
      = row (idx (ix2 s j)) :=
    Fin.ext (congrArg (fun w : BitVec 32 => min w.toInt.toNat 11) (start_word idx hidx s j))
  unfold val_main_v6
  rw [gather_read, hrow]
  rfl

/-! ## The reduction

A maximum over axis 1 (the six members) from the initial value `−∞`, the bottom of the extended reals: the fold of
`max` from `⊥` over the members, which is their supremum. -/

theorem hRed : S2x6x4096x2048.Reduces [1] S2x4096x2048 := by decide

set_option maxHeartbeats 50000 in
/-- Result index `(s, T, d)` with member `k` inserted on the reduced axis is `(s, k, T, d)`. -/
theorem lift_eq (s : Fin 2) (T : Fin 4096) (d : Fin 2048) (k : Fin 6) :
    hRed.lift (ix3 s T d) k = ix4 s k T d := by
  funext c; refine Fin.ext ?_
  match c with
  | ⟨0, _⟩ => rfl
  | ⟨1, _⟩ => rfl
  | ⟨2, _⟩ => rfl
  | ⟨3, _⟩ => rfl

instance maximumf_comm : Std.Commutative (FloatOps.maximumf (F := Ideal) (φ := .f32)) := ⟨fun a b => max_comm a b⟩
instance maximumf_assoc : Std.Associative (FloatOps.maximumf (F := Ideal) (φ := .f32)) := ⟨fun a b c => max_assoc a b c⟩

/-- The pattern `0xFF800000` is `−∞`, the bottom element. -/
theorem negInf : FloatOps.ofBits (F := Ideal) .f32 0xFF800000#32 = (⊥ : EReal) := by
  show Ideal.ofBits .f32 0xFF800000#32 = ⊥
  simp [Ideal.ofBits, Ideal.ieee]

set_option maxHeartbeats 50000 in
/-- Stage 7 at `(s, T, d)`: the supremum over the members of stage 6. -/
theorem reduce_read (P : FVec Ideal SP .f32) (idx : IVec SI 32) (s : Fin 2) (T : Fin 4096) (d : Fin 2048) :
    val_main_v7 (F := Ideal) P idx (ix3 s T d)
      = (Finset.univ : Finset (Fin 6)).sup fun k => val_main_v6 (F := Ideal) P idx (ix4 s k T d) := by
  unfold val_main_v7
  rw [Host.reduce_eq_fold_single FloatOps.maximumf _ _ _ hRed]
  have hf : (val_main_v6 (F := Ideal) P idx ∘ hRed.lift (ix3 s T d))
      = fun k => val_main_v6 (F := Ideal) P idx (ix4 s k T d) :=
    funext fun k => congrArg (val_main_v6 (F := Ideal) P idx) (lift_eq s T d k)
  rw [hf, val_main_cst_apply, negInf]
  rfl

/-- Stage 7 at `(s, T, d)` is the pooled maximum. -/
theorem v7_read (P : FVec Ideal SP .f32) (idx : IVec SI 32) (hidx : ∀ i, 0 ≤ (idx i).toInt) (s : Fin 2) (T : Fin 4096)
    (d : Fin 2048) :
    val_main_v7 (F := Ideal) P idx (ix3 s T d) = pooledAt P idx s T d := by
  rw [reduce_read]
  unfold pooledAt
  congr 1
  funext k
  exact v6_read P idx hidx s k T d

/-! ## The layout stages and the result -/

set_option maxHeartbeats 50000 in
/-- The broadcast, reshape and transpose read result index `(0, T, c)` at `(c / 2048, T, c % 2048)` of stage 7. -/
theorem layout_idx (z : Fin 1) (T : Fin 4096) (c : Fin 4096) :
    idx_main_v8 (idx_main_v9 (idx_main_v10 (ix3 z T c)))
      = ix3 (⟨c.val / 2048, by omega⟩ : Fin 2) T (⟨c.val % 2048, Nat.mod_lt _ (by norm_num)⟩ : Fin 2048) := by
  have hT := T.isLt
  have hc := c.isLt
  funext a; refine Fin.ext ?_
  match a with
  | ⟨0, _⟩ => show (T.val * 4096 + c.val) / 2048 % 2 = c.val / 2048; omega
  | ⟨1, _⟩ => show (T.val * 4096 + c.val) / 4096 = T.val; omega
  | ⟨2, _⟩ => show (T.val * 4096 + c.val) % 2048 = c.val % 2048; omega

/-- The reference program's result is the pooled array, when every index word is non-negative. -/
theorem ref_pooled (P : FVec Ideal Cert.Pool.SP .f32) (idx : IVec Cert.Pool.SI 32) (hidx : ∀ i, 0 ≤ (idx i).toInt) :
    Cert.ReferenceIdeal.Read.val_main_v10 (F := Ideal) P idx = Cert.Pool.pooled P idx := by
  funext o
  obtain ⟨z, T, c, rfl⟩ : ∃ (z : Fin 1) (T : Fin 4096) (c : Fin 4096), o = ix3 z T c := ⟨o 0, o 1, o 2, eq_ix3 o⟩
  rw [val_main_v10_apply, val_main_v9_apply, val_main_v8_apply, layout_idx, v7_read P idx hidx]
  rfl

end Cert.ReferenceIdeal.RefPool

end
-- ==== Proof.lean ====
/-
  Subgroup max pooling: the kernel against its reference, over the extended reals.

  Both programs take `P : f32[12, 4096, 2048]` (player, frame, channel) and an index array `idx : i32[2, 6]`
  (subgroup, member) and return `f32[1, 4096, 4096]`: at frame `T`, column `s · 2048 + d`, the maximum over the six
  members `j` of subgroup `s` of `P[row, T, d]`, where `row` is chosen by the index word `idx[s, j]`.

  The kernel clamps every index word to `0 … 11` on the host and hands the clamped array to one region as its
  prefetched table; the region walks the grid (frame tile, subgroup, member) = (4, 2, 6), fetches the 1 × 1024 × 2048
  slab of the player row the table names, copies it into the output block at member 0 and takes the elementwise
  maximum with it at the five other members; the output block is written back once, after member 5. So its result is
  the pooled array with `row = clamp(idx[s, j])`, the word read signed — for EVERY index array
  (`Cert.KernelIdeal.Fr.run`), and its frame needs no hypothesis either: a clamped word always names a block inside
  `P` (`Cert.Kernel.Fr.ok`).
  The reference first maps a negative index word `w` to `w + 12` (array indexing counts negative indices from the
  end), then gathers with the start index clamped to `0 … 11`, and reduces by the maximum from `−∞`. For a
  NON-NEGATIVE word the wrap does nothing and the two clamps are one function, so the reference's result is the same
  pooled array (`Cert.ReferenceIdeal.RefPool.ref_pooled`); for a word in `−11 … −1` the reference reads row `w + 12`
  and the kernel row 0. The precondition therefore says, besides the finiteness of `P`, that every index word is
  non-negative, and only the reference's side uses it. No law of the extended reals beyond the maximum's being the
  supremum (with `−∞` its bottom) is needed; finiteness is not used.
-/
import proofs.«429363_j59708635349141_3_alg».proof.Defs
import proofs.«429363_j59708635349141_3_alg».proof.Proof.Gen.Kernel
import proofs.«429363_j59708635349141_3_alg».proof.Proof.Gen.KernelIdeal
import proofs.«429363_j59708635349141_3_alg».proof.Proof.Gen.ReferenceIdeal
import proofs.«429363_j59708635349141_3_alg».proof.Proof.Gen.Pre_finite_inputs
import proofs.«429363_j59708635349141_3_alg».proof.Proof.Gen.ReferenceIdeal.Run
import proofs.«429363_j59708635349141_3_alg».proof.Proof.Gen.ReferenceIdeal.Read
import proofs.«429363_j59708635349141_3_alg».proof.Proof.Kernel.Frame
import proofs.«429363_j59708635349141_3_alg».proof.Proof.Kernel.Table
import proofs.«429363_j59708635349141_3_alg».proof.Proof.KernelIdeal.ValueArray
import proofs.«429363_j59708635349141_3_alg».proof.Proof.RefPool
import proofs.«429363_j59708635349141_3_alg».proof.Proof.IndexWords
import Idealize.ShloMosaic.Adequacy
import Idealize.ShloMosaic.Init

noncomputable section

namespace Cert.Proof

open Idealize.ShloMosaic Idealize.SL.Sem

/-- The word-level kernel runs to the end and leaves its arguments unchanged, whatever the index array holds. -/
theorem frame_k : Cert.frame_Kernel (hKernel := Cert.Kernel.Gen.facts) (hPre_finite_inputs := Cert.Pre_finite_inputs.Gen.facts) :=
  fun m ρ _ => Cert.Kernel.Fr.frame m ρ (Cert.Kernel.Fr.ok m)

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ (Cert.KernelIdeal.Fr.ok m)

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two arguments, with every index word non-negative, both programs end with the
    pooled array of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Pool.pooled (Cert.KernelIdeal.Fr.Parr m c) (Cert.KernelIdeal.Fr.Iarr m c),
    Cert.KernelIdeal.Fr.run (mi := m) (ρ := ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2]
  exact Cert.ReferenceIdeal.RefPool.ref_pooled _ _ (Cert.Pool.Words.idx_nonneg_of_pre _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
